-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S1x128 : Shape := ⟨2, ![1, 128]⟩
abbrev S1x8 : Shape := ⟨2, ![1, 8]⟩
abbrev S1x30 : Shape := ⟨2, ![1, 30]⟩
abbrev S264x128 : Shape := ⟨2, ![264, 128]⟩
abbrev S128 : Shape := ⟨1, ![128]⟩
abbrev S128x4 : Shape := ⟨2, ![128, 4]⟩
abbrev S4 : Shape := ⟨1, ![4]⟩
abbrev S128x5 : Shape := ⟨2, ![128, 5]⟩
abbrev S5 : Shape := ⟨1, ![5]⟩
abbrev S128x30 : Shape := ⟨2, ![128, 30]⟩
abbrev S30 : Shape := ⟨1, ![30]⟩
abbrev S128x1 : Shape := ⟨2, ![128, 1]⟩
abbrev S1 : Shape := ⟨1, ![1]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1x8 : S_.BroadcastsInDim S1x8 (![] : Fin 0 → Fin S1x8.rank)
  reducesTo_S1x8_S_d0_1 : S1x8.ReducesTo [0, 1] S_
  bcast_S_S1x30 : S_.BroadcastsInDim S1x30 (![] : Fin 0 → Fin S1x30.rank)
  reducesTo_S1x30_S_d0_1 : S1x30.ReducesTo [0, 1] S_
  bcast_S_S264x128 : S_.BroadcastsInDim S264x128 (![] : Fin 0 → Fin S264x128.rank)
  reducesTo_S264x128_S_d0_1 : S264x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_
  bcast_S_S128x30 : S_.BroadcastsInDim S128x30 (![] : Fin 0 → Fin S128x30.rank)
  reducesTo_S128x30_S_d0_1 : S128x30.ReducesTo [0, 1] S_
  bcast_S_S30 : S_.BroadcastsInDim S30 (![] : Fin 0 → Fin S30.rank)
  reducesTo_S30_S_d0 : S30.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S128x1 .f32) (main_arg19 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1 .f32 := Host.absf main_arg18
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg14 : FVec F S128x30 .f32) (main_arg15 : FVec F S30 .f32) (main_arg16 : FVec F S264x128 .f32) (main_arg17 : FVec F S128 .f32) (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S128x30 .f32 := Host.absf main_arg14
  let main_cst_26 : FVec F S_ .f32 := constant S_ .f32 0x7F800000#32
  let main_v70 : FVec F S128x30 .f32 := broadcastInDim S128x30 ![] bcast_S_S128x30 main_cst_26
  let main_v71 : IVec S128x30 1 := cmpf .olt main_v69 main_v70
  let main_c_27 : IVec S_ 1 := constantI S_ 1 1#1
  let main_v72 : IVec S_ 1 := (fun x v => Host.reduce IntOp.andi x v reducesTo_S128x30_S_d0_1 h_S_) main_v71 main_c_27
  let main_v73 : IVec S_ 1 := andi main_v68 main_v72
  let main_v74 : FVec F S30 .f32 := Host.absf main_arg15
  let main_cst_28 : FVec F S_ .f32 := constant S_ .f32 0x7F800000#32
  let main_v75 : FVec F S30 .f32 := broadcastInDim S30 ![] bcast_S_S30 main_cst_28
  let main_v76 : IVec S30 1 := cmpf .olt main_v74 main_v75
  let main_c_29 : IVec S_ 1 := constantI S_ 1 1#1
  let main_v77 : IVec S_ 1 := (fun x v => Host.reduce IntOp.andi x v reducesTo_S30_S_d0 h_S_) main_v76 main_c_29
  let main_v78 : IVec S_ 1 := andi main_v73 main_v77
  let main_v79 : FVec F S264x128 .f32 := Host.absf main_arg16
  let main_cst_30 : FVec F S_ .f32 := constant S_ .f32 0x7F800000#32
  let main_v80 : FVec F S264x128 .f32 := broadcastInDim S264x128 ![] bcast_S_S264x128 main_cst_30
  let main_v81 : IVec S264x128 1 := cmpf .olt main_v79 main_v80
  let main_c_31 : IVec S_ 1 := constantI S_ 1 1#1
  let main_v82 : IVec S_ 1 := (fun x v => Host.reduce IntOp.andi x v reducesTo_S264x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S5 .f32) (main_arg12 : FVec F S264x128 .f32) (main_arg13 : FVec F S128 .f32) (main_arg14 : FVec F S128x30 .f32) (main_arg15 : FVec F S30 .f32) (main_arg16 : FVec F S264x128 .f32) (main_arg17 : FVec F S128 .f32) (main_arg18 : FVec F S128x1 .f32) (main_arg19 : FVec F S1 .f32) (main_v48 : IVec S_ 1) (main_v49 : FVec F S128x5 .f32) (main_v50 : FVec F S128x5 .f32) : IVec S_ 1 :=
  let main_v51 : IVec S128x5 1 := cmpf .olt main_v49 main_v50
  let main_c_19 : IVec S_ 1 := constantI S_ 1 1#1
  let main_v52 : IVec S_ 1 := (fun x v => Host.reduce IntOp.andi x v reducesTo_S128x5_S_d0_1 h_S_) main_v51 main_c_19
  let main_v53 : IVec S_ 1 := andi main_v48 main_v52
  let main_v54 : FVec F S5 .f32 := Host.absf main_arg11
  let main_cst_20 : FVec F S_ .f32 := constant S_ .f32 0x7F800000#32
  let main_v55 : FVec F S5 .f32 := broadcastInDim S5 ![] bcast_S_S5 main_cst_20
  let main_v56 : IVec S5 1 := cmpf .olt main_v54 main_v55
  let main_c_21 : IVec S_ 1 := constantI S_ 1 1#1
  let main_v57 : IVec S_ 1 := (fun x v => Host.reduce IntOp.andi x v reducesTo_S5_S_d0 h_S_) main_v56 main_c_21
  let main_v58 : IVec S_ 1 := andi main_v53 main_v57
  let main_v59 : FVec F S264x128 .f32 := Host.absf main_arg12
  let main_cst_22 : FVec F S_ .f32 := constant S_ .f32 0x7F800000#32
  let main_v60 : FVec F S264x128 .f32 := broadcastInDim S264x128 ![] bcast_S_S264x128 main_cst_22
  let main_v61 : IVec S264x128 1 := cmpf .olt main_v59 main_v60
  let main_c_23 : IVec S_ 1 := constantI S_ 1 1#1
  let main_v62 : IVec S_ 1 := (fun x v => Host.reduce IntOp.andi x v reducesTo_S264x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_v63 main_v67

def fn_part2 {F : FTy → Type} [FloatOps F] (main_arg7 : FVec F S4 .f32) (main_arg8 : FVec F S264x128 .f32) (main_arg9 : FVec F S128 .f32) (main_arg10 : FVec F S128x5 .f32) (main_arg11 : FVec F S5 .f32) (main_arg12 : FVec F S264x128 .f32) (main_arg13 : FVec F S128 .f32) (main_arg14 : FVec F S128x30 .f32) (main_arg15 : FVec F S30 .f32) (main_arg16 : FVec F S264x128 .f32) (main_arg17 : FVec F S128 .f32) (main_arg18 : FVec F S128x1 .f32) (main_arg19 : FVec F S1 .f32) (main_v33 : IVec S_ 1) : IVec S_ 1 :=
  let main_v34 : FVec F S4 .f32 := Host.absf main_arg7
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S264x128 .f32 := Host.absf main_arg8
  let main_cst_14 : FVec F S_ .f32 := constant S_ .f32 0x7F800000#32
  let main_v40 : FVec F S264x128 .f32 := broadcastInDim S264x128 ![] bcast_S_S264x128 main_cst_14
  let main_v41 : IVec S264x128 1 := cmpf .olt main_v39 main_v40
  let main_c_15 : IVec S_ 1 := constantI S_ 1 1#1
  let main_v42 : IVec S_ 1 := (fun x v => Host.reduce IntOp.andi x v reducesTo_S264x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x5 .f32 := Host.absf main_arg10
  let main_cst_18 : FVec F S_ .f32 := constant S_ .f32 0x7F800000#32
  let main_v50 : FVec F S128x5 .f32 := broadcastInDim S128x5 ![] bcast_S_S128x5 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S264x128 .f32) (main_arg5 : FVec F S128 .f32) (main_arg6 : FVec F S128x4 .f32) (main_arg7 : FVec F S4 .f32) (main_arg8 : FVec F S264x128 .f32) (main_arg9 : FVec F S128 .f32) (main_arg10 : FVec F S128x5 .f32) (main_arg11 : FVec F S5 .f32) (main_arg12 : FVec F S264x128 .f32) (main_arg13 : FVec F S128 .f32) (main_arg14 : FVec F S128x30 .f32) (main_arg15 : FVec F S30 .f32) (main_arg16 : FVec F S264x128 .f32) (main_arg17 : FVec F S128 .f32) (main_arg18 : FVec F S128x1 .f32) (main_arg19 : FVec F S1 .f32) (main_v13 : IVec S_ 1) (main_v16 : IVec S1x30 1) : IVec S_ 1 :=
  let main_c_5 : IVec S_ 1 := constantI S_ 1 1#1
  let main_v17 : IVec S_ 1 := (fun x v => Host.reduce IntOp.andi x v reducesTo_S1x30_S_d0_1 h_S_) main_v16 main_c_5
  let main_v18 : IVec S_ 1 := andi main_v13 main_v17
  let main_v19 : FVec F S264x128 .f32 := Host.absf main_arg4
  let main_cst_6 : FVec F S_ .f32 := constant S_ .f32 0x7F800000#32
  let main_v20 : FVec F S264x128 .f32 := broadcastInDim S264x128 ![] bcast_S_S264x128 main_cst_6
  let main_v21 : IVec S264x128 1 := cmpf .olt main_v19 main_v20
  let main_c_7 : IVec S_ 1 := constantI S_ 1 1#1
  let main_v22 : IVec S_ 1 := (fun x v => Host.reduce IntOp.andi x v reducesTo_S264x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x4 .f32 := Host.absf main_arg6
  let main_cst_10 : FVec F S_ .f32 := constant S_ .f32 0x7F800000#32
  let main_v30 : FVec F S128x4 .f32 := broadcastInDim S128x4 ![] bcast_S_S128x4 main_cst_10
  let main_v31 : IVec S128x4 1 := cmpf .olt main_v29 main_v30
  let main_c_11 : IVec S_ 1 := constantI S_ 1 1#1
  let main_v32 : IVec S_ 1 := (fun x v => Host.reduce IntOp.andi x v reducesTo_S128x4_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S400000x128 .f32) (main_arg1 : FVec F S1x128 .f32) (main_arg2 : FVec F S1x8 .f32) (main_arg3 : FVec F S1x30 .f32) (main_arg4 : FVec F S264x128 .f32) (main_arg5 : FVec F S128 .f32) (main_arg6 : FVec F S128x4 .f32) (main_arg7 : FVec F S4 .f32) (main_arg8 : FVec F S264x128 .f32) (main_arg9 : FVec F S128 .f32) (main_arg10 : FVec F S128x5 .f32) (main_arg11 : FVec F S5 .f32) (main_arg12 : FVec F S264x128 .f32) (main_arg13 : FVec F S128 .f32) (main_arg14 : FVec F S128x30 .f32) (main_arg15 : FVec F S30 .f32) (main_arg16 : FVec F S264x128 .f32) (main_arg17 : FVec F S128 .f32) (main_arg18 : FVec F S128x1 .f32) (main_arg19 : FVec F S1 .f32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x8 .f32 := Host.absf main_arg2
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  let main_v14 : FVec F S1x30 .f32 := Host.absf main_arg3
  let main_cst_4 : FVec F S_ .f32 := constant S_ .f32 0x7F800000#32
  let main_v15 : FVec F S1x30 .f32 := broadcastInDim S1x30 ![] bcast_S_S1x30 main_cst_4
  let main_v16 : IVec S1x30 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S400000x128 : Shape := ⟨2, ![400000, 128]⟩
abbrev S1x128 : Shape := ⟨2, ![1, 128]⟩
abbrev S1x8 : Shape := ⟨2, ![1, 8]⟩
abbrev S1x30 : Shape := ⟨2, ![1, 30]⟩
abbrev S264x128 : Shape := ⟨2, ![264, 128]⟩
abbrev S128 : Shape := ⟨1, ![128]⟩
abbrev S128x4 : Shape := ⟨2, ![128, 4]⟩
abbrev S4 : Shape := ⟨1, ![4]⟩
abbrev S128x5 : Shape := ⟨2, ![128, 5]⟩
abbrev S5 : Shape := ⟨1, ![5]⟩
abbrev S128x30 : Shape := ⟨2, ![128, 30]⟩
abbrev S30 : Shape := ⟨1, ![30]⟩
abbrev S128x1 : Shape := ⟨2, ![128, 1]⟩
abbrev S1 : Shape := ⟨1, ![1]⟩
abbrev S1x264 : Shape := ⟨2, ![1, 264]⟩
abbrev S_ : Shape := ⟨0, ![]⟩
abbrev S1x4 : Shape := ⟨2, ![1, 4]⟩
abbrev S1x5 : Shape := ⟨2, ![1, 5]⟩
abbrev S128x128 : Shape := ⟨2, ![128, 128]⟩
abbrev S8x128 : Shape := ⟨2, ![8, 128]⟩
abbrev S400000x1 : Shape := ⟨2, ![400000, 1]⟩
abbrev S8000x128 : Shape := ⟨2, ![8000, 128]⟩
abbrev S8000x1 : Shape := ⟨2, ![8000, 1]⟩
abbrev S1x1 : Shape := ⟨2, ![1, 1]⟩
abbrev S1x400000 : Shape := ⟨2, ![1, 400000]⟩
abbrev S1x400039 : Shape := ⟨2, ![1, 400039]⟩

abbrev nBuf : Space → Nat
  | .hbm => 64
  | .vmem => 8
  | .smem => 0
  | _ => 0

abbrev bufTy : (tb : Table) → Fin (tcTables nBuf tb) → BufTy
  | .hbm, ⟨0, _⟩ => ⟨S400000x128, .f32⟩
  | .hbm, ⟨1, _⟩ => ⟨S1x128, .f32⟩
  | .hbm, ⟨2, _⟩ => ⟨S1x8, .f32⟩
  | .hbm, ⟨3, _⟩ => ⟨S1x30, .f32⟩
  | .hbm, ⟨4, _⟩ => ⟨S264x128, .f32⟩
  | .hbm, ⟨5, _⟩ => ⟨S128, .f32⟩
  | .hbm, ⟨6, _⟩ => ⟨S128x4, .f32⟩
  | .hbm, ⟨7, _⟩ => ⟨S4, .f32⟩
  | .hbm, ⟨8, _⟩ => ⟨S264x128, .f32⟩
  | .hbm, ⟨9, _⟩ => ⟨S128, .f32⟩
  | .hbm, ⟨10, _⟩ => ⟨S128x5, .f32⟩
  | .hbm, ⟨11, _⟩ => ⟨S5, .f32⟩
  | .hbm, ⟨12, _⟩ => ⟨S264x128, .f32⟩
  | .hbm, ⟨13, _⟩ => ⟨S128, .f32⟩
  | .hbm, ⟨14, _⟩ => ⟨S128x30, .f32⟩
  | .hbm, ⟨15, _⟩ => ⟨S30, .f32⟩
  | .hbm, ⟨16, _⟩ => ⟨S264x128, .f32⟩
  | .hbm, ⟨17, _⟩ => ⟨S128, .f32⟩
  | .hbm, ⟨18, _⟩ => ⟨S128x1, .f32⟩
  | .hbm, ⟨19, _⟩ => ⟨S1, .f32⟩
  | .hbm, ⟨20, _⟩ => ⟨S1x128, .f32⟩
  | .hbm, ⟨21, _⟩ => ⟨S1x264, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S1x4, .f32⟩
  | .hbm, ⟨29, _⟩ => ⟨S1x4, .f32⟩
  | .hbm, ⟨30, _⟩ => ⟨S1x4, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S1x5, .f32⟩
  | .hbm, ⟨38, _⟩ => ⟨S1x5, .f32⟩
  | .hbm, ⟨39, _⟩ => ⟨S1x5, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S1x30, .f32⟩
  | .hbm, ⟨47, _⟩ => ⟨S1x30, .f32⟩
  | .hbm, ⟨48, _⟩ => ⟨S1x30, .f32⟩
  | .hbm, ⟨49, _⟩ => ⟨S1x30, .f32⟩
  | .hbm, ⟨50, _⟩ => ⟨S1x30, .f32⟩
  | .hbm, ⟨51, _⟩ => ⟨S128x128, .f32⟩
  | .hbm, ⟨52, _⟩ => ⟨S128x128, .f32⟩
  | .hbm, ⟨53, _⟩ => ⟨S8x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S128x128, .bf16⟩
  | .hbm, ⟨60, _⟩ => ⟨S128x1, .bf16⟩
  | .hbm, ⟨61, _⟩ => ⟨S400000x1, .f32⟩
  | .hbm, ⟨62, _⟩ => ⟨S1x400000, .f32⟩
  | .hbm, ⟨63, _⟩ => ⟨S1x400039, .f32⟩
  | .local _ .vmem, ⟨0, _⟩ => ⟨S8000x128, .f32⟩
  | .local _ .vmem, ⟨1, _⟩ => ⟨S8000x128, .f32⟩
  | .local _ .vmem, ⟨2, _⟩ => ⟨S128x128, .bf16⟩
  | .local _ .vmem, ⟨3, _⟩ => ⟨S1x128, .f32⟩
  | .local _ .vmem, ⟨4, _⟩ => ⟨S128x1, .bf16⟩
  | .local _ .vmem, ⟨5, _⟩ => ⟨S1, .f32⟩
  | .local _ .vmem, ⟨6, _⟩ => ⟨S8000x1, .f32⟩
  | .local _ .vmem, ⟨7, _⟩ => ⟨S8000x1, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_cst : Ref sig .tc := ⟨.hbm, 25, rfl⟩
abbrev main_call0_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_call1_cst : Ref sig .tc := ⟨.hbm, 34, rfl⟩
abbrev main_call1_v0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_call2_cst : Ref sig .tc := ⟨.hbm, 43, rfl⟩
abbrev main_call2_v0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S400000x128_S1x128_0_0 : S400000x128.Slices ![0, 0] S1x128
  concatenates_S1x128_S1x128_S1x8_S1x264_d1 : Shape.Concatenates [S1x128, S1x128, S1x8] S1x264 1
  bcast_S128_S1x128_1 : S128.BroadcastsInDim S1x128 (![1] : Fin 1 → Fin S1x128.rank)
  bcast_S_S1x128 : S_.BroadcastsInDim S1x128 (![] : Fin 0 → Fin S1x128.rank)
  bcast_S4_S1x4_1 : S4.BroadcastsInDim S1x4 (![1] : Fin 1 → Fin S1x4.rank)
  bcast_S5_S1x5_1 : S5.BroadcastsInDim S1x5 (![1] : Fin 1 → Fin S1x5.rank)
  bcast_S30_S1x30_1 : S30.BroadcastsInDim S1x30 (![1] : Fin 1 → Fin S1x30.rank)
  slices_S264x128_S128x128_0_0 : S264x128.Slices ![0, 0] S128x128
  slices_S264x128_S128x128_128_0 : S264x128.Slices ![128, 0] S128x128
  slices_S264x128_S8x128_256_0 : S264x128.Slices ![256, 0] S8x128
  bitsLt_bf16_f32 : FTy.bits .bf16 < FTy.bits .f32
  inb_S8000x128_S8000x128_0_0 : ∀ a, (![0, 0] : Fin 2 → Nat) a + S8000x128.size a ≤ S8000x128.size a
  h_S8000x128 : 0 < S8000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  transposes_S400000x1_S1x400000_1_0 : S400000x1.Transposes [1, 0] S1x400000
  concatenates_S1x4_S1x5_S1x30_S1x400000_S1x400039_d1 : Shape.Concatenates [S1x4, S1x5, S1x30, S1x400000] S1x400039 1
  dot_S1x264_S264x128_S1x128_1_0_0_1_n_n_wf : DotDims.WF S1x264 S264x128 S1x128 [1] [0] [0] [1] [] []
  dot_S1x128_S128x4_S1x4_1_0_0_1_n_n_wf : DotDims.WF S1x128 S128x4 S1x4 [1] [0] [0] [1] [] []
  dot_S1x128_S128x5_S1x5_1_0_0_1_n_n_wf : DotDims.WF S1x128 S128x5 S1x5 [1] [0] [0] [1] [] []
  dot_S1x128_S128x30_S1x30_1_0_0_1_n_n_wf : DotDims.WF S1x128 S128x30 S1x30 [1] [0] [0] [1] [] []
  dot_S1x128_S128x128_S1x128_1_0_0_1_n_n_wf : DotDims.WF S1x128 S128x128 S1x128 [1] [0] [0] [1] [] []
  dot_S1x8_S8x128_S1x128_1_0_0_1_n_n_wf : DotDims.WF S1x8 S8x128 S1x128 [1] [0] [0] [1] [] []
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S400000x128.size a
  hwx0_0 : ∀ i : grid0.Coords, EltTy.bits .f32 = 32 ∨ (Rect.block (s := S400000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .bf16 = 32 ∨ (Rect.block (s := S128x1) S128x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x1.size a ≤ S400000x1.size a
  hwx0_5 : ∀ i : grid0.Coords, EltTy.bits .f32 = 32 ∨ (Rect.block (s := S400000x1) S8000x1.size (cc0_transform_5 i) (hinb0_5 i)).WholeWords (EltTy.packing .f32)

variable [Facts₀]

def dot_S1x264_S264x128_S1x128_1_0_0_1_n_n : DotDims S1x264 S264x128 S1x128 where
  lhsContracting := [1]
  rhsContracting := [0]
  lhsNonContracting := [0]
  rhsNonContracting := [1]
  lhsBatch := []
  rhsBatch := []
  wf := dot_S1x264_S264x128_S1x128_1_0_0_1_n_n_wf
def dot_S1x128_S128x4_S1x4_1_0_0_1_n_n : DotDims S1x128 S128x4 S1x4 where
  lhsContracting := [1]
  rhsContracting := [0]
  lhsNonContracting := [0]
  rhsNonContracting := [1]
  lhsBatch := []
  rhsBatch := []
  wf := dot_S1x128_S128x4_S1x4_1_0_0_1_n_n_wf
def dot_S1x128_S128x5_S1x5_1_0_0_1_n_n : DotDims S1x128 S128x5 S1x5 where
  lhsContracting := [1]
  rhsContracting := [0]
  lhsNonContracting := [0]
  rhsNonContracting := [1]
  lhsBatch := []
  rhsBatch := []
  wf := dot_S1x128_S128x5_S1x5_1_0_0_1_n_n_wf
def dot_S1x128_S128x30_S1x30_1_0_0_1_n_n : DotDims S1x128 S128x30 S1x30 where
  lhsContracting := [1]
  rhsContracting := [0]
  lhsNonContracting := [0]
  rhsNonContracting := [1]
  lhsBatch := []
  rhsBatch := []
  wf := dot_S1x128_S128x30_S1x30_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x8_S8x128_S1x128_1_0_0_1_n_n : DotDims S1x8 S8x128 S1x128 where
  lhsContracting := [1]
  rhsContracting := [0]
  lhsNonContracting := [0]
  rhsNonContracting := [1]
  lhsBatch := []
  rhsBatch := []
  wf := dot_S1x8_S8x128_S1x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg19) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S8000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S400000x128 : Shape := ⟨2, ![400000, 128]⟩
abbrev S1x128 : Shape := ⟨2, ![1, 128]⟩
abbrev S1x8 : Shape := ⟨2, ![1, 8]⟩
abbrev S1x30 : Shape := ⟨2, ![1, 30]⟩
abbrev S264x128 : Shape := ⟨2, ![264, 128]⟩
abbrev S128 : Shape := ⟨1, ![128]⟩
abbrev S128x4 : Shape := ⟨2, ![128, 4]⟩
abbrev S4 : Shape := ⟨1, ![4]⟩
abbrev S128x5 : Shape := ⟨2, ![128, 5]⟩
abbrev S5 : Shape := ⟨1, ![5]⟩
abbrev S128x30 : Shape := ⟨2, ![128, 30]⟩
abbrev S30 : Shape := ⟨1, ![30]⟩
abbrev S128x1 : Shape := ⟨2, ![128, 1]⟩
abbrev S1 : Shape := ⟨1, ![1]⟩
abbrev S1x264 : Shape := ⟨2, ![1, 264]⟩
abbrev S_ : Shape := ⟨0, ![]⟩
abbrev S1x4 : Shape := ⟨2, ![1, 4]⟩
abbrev S1x5 : Shape := ⟨2, ![1, 5]⟩
abbrev S400000x8 : Shape := ⟨2, ![400000, 8]⟩
abbrev S400000x264 : Shape := ⟨2, ![400000, 264]⟩
abbrev S400000x1 : Shape := ⟨2, ![400000, 1]⟩
abbrev S1x1 : Shape := ⟨2, ![1, 1]⟩
abbrev S1x400000 : Shape := ⟨2, ![1, 400000]⟩
abbrev S1x400039 : Shape := ⟨2, ![1, 400039]⟩

abbrev nBuf : Space → Nat
  | .hbm => 67
  | .vmem => 0
  | .smem => 0
  | _ => 0

abbrev bufTy : (tb : Table) → Fin (tcTables nBuf tb) → BufTy
  | .hbm, ⟨0, _⟩ => ⟨S400000x128, .f32⟩
  | .hbm, ⟨1, _⟩ => ⟨S1x128, .f32⟩
  | .hbm, ⟨2, _⟩ => ⟨S1x8, .f32⟩
  | .hbm, ⟨3, _⟩ => ⟨S1x30, .f32⟩
  | .hbm, ⟨4, _⟩ => ⟨S264x128, .f32⟩
  | .hbm, ⟨5, _⟩ => ⟨S128, .f32⟩
  | .hbm, ⟨6, _⟩ => ⟨S128x4, .f32⟩
  | .hbm, ⟨7, _⟩ => ⟨S4, .f32⟩
  | .hbm, ⟨8, _⟩ => ⟨S264x128, .f32⟩
  | .hbm, ⟨9, _⟩ => ⟨S128, .f32⟩
  | .hbm, ⟨10, _⟩ => ⟨S128x5, .f32⟩
  | .hbm, ⟨11, _⟩ => ⟨S5, .f32⟩
  | .hbm, ⟨12, _⟩ => ⟨S264x128, .f32⟩
  | .hbm, ⟨13, _⟩ => ⟨S128, .f32⟩
  | .hbm, ⟨14, _⟩ => ⟨S128x30, .f32⟩
  | .hbm, ⟨15, _⟩ => ⟨S30, .f32⟩
  | .hbm, ⟨16, _⟩ => ⟨S264x128, .f32⟩
  | .hbm, ⟨17, _⟩ => ⟨S128, .f32⟩
  | .hbm, ⟨18, _⟩ => ⟨S128x1, .f32⟩
  | .hbm, ⟨19, _⟩ => ⟨S1, .f32⟩
  | .hbm, ⟨20, _⟩ => ⟨S1x128, .f32⟩
  | .hbm, ⟨21, _⟩ => ⟨S1x264, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S1x4, .f32⟩
  | .hbm, ⟨29, _⟩ => ⟨S1x4, .f32⟩
  | .hbm, ⟨30, _⟩ => ⟨S1x4, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S1x5, .f32⟩
  | .hbm, ⟨38, _⟩ => ⟨S1x5, .f32⟩
  | .hbm, ⟨39, _⟩ => ⟨S1x5, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S1x30, .f32⟩
  | .hbm, ⟨47, _⟩ => ⟨S1x30, .f32⟩
  | .hbm, ⟨48, _⟩ => ⟨S1x30, .f32⟩
  | .hbm, ⟨49, _⟩ => ⟨S1x30, .f32⟩
  | .hbm, ⟨50, _⟩ => ⟨S1x30, .f32⟩
  | .hbm, ⟨51, _⟩ => ⟨S400000x128, .f32⟩
  | .hbm, ⟨52, _⟩ => ⟨S400000x8, .f32⟩
  | .hbm, ⟨53, _⟩ => ⟨S400000x264, .f32⟩
  | .hbm, ⟨54, _⟩ => ⟨S400000x128, .f32⟩
  | .hbm, ⟨55, _⟩ => ⟨S1x128, .f32⟩
  | .hbm, ⟨56, _⟩ => ⟨S400000x128, .f32⟩
  | .hbm, ⟨57, _⟩ => ⟨S400000x128, .f32⟩
  | .hbm, ⟨58, _⟩ => ⟨S_, .f32⟩
  | .hbm, ⟨59, _⟩ => ⟨S400000x128, .f32⟩
  | .hbm, ⟨60, _⟩ => ⟨S400000x128, .f32⟩
  | .hbm, ⟨61, _⟩ => ⟨S400000x1, .f32⟩
  | .hbm, ⟨62, _⟩ => ⟨S1x1, .f32⟩
  | .hbm, ⟨63, _⟩ => ⟨S400000x1, .f32⟩
  | .hbm, ⟨64, _⟩ => ⟨S400000x1, .f32⟩
  | .hbm, ⟨65, _⟩ => ⟨S1x400000, .f32⟩
  | .hbm, ⟨66, _⟩ => ⟨S1x400039, .f32⟩
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_cst : Ref sig .tc := ⟨.hbm, 25, rfl⟩
abbrev main_call0_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_call1_cst : Ref sig .tc := ⟨.hbm, 34, rfl⟩
abbrev main_call1_v0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_call2_cst : Ref sig .tc := ⟨.hbm, 43, rfl⟩
abbrev main_call2_v0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_call3_cst : Ref sig .tc := ⟨.hbm, 58, rfl⟩
abbrev main_call3_v0 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩

abbrev nD : Nat := 1
abbrev τ : Topo := Topo.v7x

variable {F : FTy → Type} [FloatOps F]

class Facts₀ : Prop where
  slices_S400000x128_S1x128_0_0 : S400000x128.Slices ![0, 0] S1x128
  concatenates_S1x128_S1x128_S1x8_S1x264_d1 : Shape.Concatenates [S1x128, S1x128, S1x8] S1x264 1
  bcast_S128_S1x128_1 : S128.BroadcastsInDim S1x128 (![1] : Fin 1 → Fin S1x128.rank)
  bcast_S_S1x128 : S_.BroadcastsInDim S1x128 (![] : Fin 0 → Fin S1x128.rank)
  bcast_S4_S1x4_1 : S4.BroadcastsInDim S1x4 (![1] : Fin 1 → Fin S1x4.rank)
  bcast_S5_S1x5_1 : S5.BroadcastsInDim S1x5 (![1] : Fin 1 → Fin S1x5.rank)
  bcast_S30_S1x30_1 : S30.BroadcastsInDim S1x30 (![1] : Fin 1 → Fin S1x30.rank)
  bcast_S1x128_S400000x128_0_1 : S1x128.BroadcastsInDim S400000x128 (![0, 1] : Fin 2 → Fin S400000x128.rank)
  bcast_S1x8_S400000x8_0_1 : S1x8.BroadcastsInDim S400000x8 (![0, 1] : Fin 2 → Fin S400000x8.rank)
  concatenates_S400000x128_S400000x128_S400000x8_S400000x264_d1 : Shape.Concatenates [S400000x128, S400000x128, S400000x8] S400000x264 1
  bcast_S_S400000x128 : S_.BroadcastsInDim S400000x128 (![] : Fin 0 → Fin S400000x128.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  transposes_S400000x1_S1x400000_1_0 : S400000x1.Transposes [1, 0] S1x400000
  concatenates_S1x4_S1x5_S1x30_S1x400000_S1x400039_d1 : Shape.Concatenates [S1x4, S1x5, S1x30, S1x400000] S1x400039 1
  dot_S1x264_S264x128_S1x128_1_0_0_1_n_n_wf : DotDims.WF S1x264 S264x128 S1x128 [1] [0] [0] [1] [] []
  dot_S1x128_S128x4_S1x4_1_0_0_1_n_n_wf : DotDims.WF S1x128 S128x4 S1x4 [1] [0] [0] [1] [] []
  dot_S1x128_S128x5_S1x5_1_0_0_1_n_n_wf : DotDims.WF S1x128 S128x5 S1x5 [1] [0] [0] [1] [] []
  dot_S1x128_S128x30_S1x30_1_0_0_1_n_n_wf : DotDims.WF S1x128 S128x30 S1x30 [1] [0] [0] [1] [] []
  dot_S400000x264_S264x128_S400000x128_1_0_0_1_n_n_wf : DotDims.WF S400000x264 S264x128 S400000x128 [1] [0] [0] [1] [] []
  dot_S400000x128_S128x1_S400000x1_1_0_0_1_n_n_wf : DotDims.WF S400000x128 S128x1 S400000x1 [1] [0] [0] [1] [] []

variable [Facts₀]

def dot_S1x264_S264x128_S1x128_1_0_0_1_n_n : DotDims S1x264 S264x128 S1x128 where
  lhsContracting := [1]
  rhsContracting := [0]
  lhsNonContracting := [0]
  rhsNonContracting := [1]
  lhsBatch := []
  rhsBatch := []
  wf := dot_S1x264_S264x128_S1x128_1_0_0_1_n_n_wf
def dot_S1x128_S128x4_S1x4_1_0_0_1_n_n : DotDims S1x128 S128x4 S1x4 where
  lhsContracting := [1]
  rhsContracting := [0]
  lhsNonContracting := [0]
  rhsNonContracting := [1]
  lhsBatch := []
  rhsBatch := []
  wf := dot_S1x128_S128x4_S1x4_1_0_0_1_n_n_wf
def dot_S1x128_S128x5_S1x5_1_0_0_1_n_n : DotDims S1x128 S128x5 S1x5 where
  lhsContracting := [1]
  rhsContracting := [0]
  lhsNonContracting := [0]
  rhsNonContracting := [1]
  lhsBatch := []
  rhsBatch := []
  wf := dot_S1x128_S128x5_S1x5_1_0_0_1_n_n_wf
def dot_S1x128_S128x30_S1x30_1_0_0_1_n_n : DotDims S1x128 S128x30 S1x30 where
  lhsContracting := [1]
  rhsContracting := [0]
  lhsNonContracting := [0]
  rhsNonContracting := [1]
  lhsBatch := []
  rhsBatch := []
  wf := dot_S1x128_S128x30_S1x30_1_0_0_1_n_n_wf
def dot_S400000x264_S264x128_S400000x128_1_0_0_1_n_n : DotDims S400000x264 S264x128 S400000x128 where
  lhsContracting := [1]
  rhsContracting := [0]
  lhsNonContracting := [0]
  rhsNonContracting := [1]
  lhsBatch := []
  rhsBatch := []
  wf := dot_S400000x264_S264x128_S400000x128_1_0_0_1_n_n_wf
def dot_S400000x128_S128x1_S400000x1_1_0_0_1_n_n : DotDims S400000x128 S128x1 S400000x1 where
  lhsContracting := [1]
  rhsContracting := [0]
  lhsNonContracting := [0]
  rhsNonContracting := [1]
  lhsBatch := []
  rhsBatch := []
  wf := dot_S400000x128_S128x1_S400000x1_1_0_0_1_n_n_wf

class Facts : Prop extends Facts₀ where

variable [Facts]
-- ==== Proof.KernelHost.lean ====
/-
  The host side of the teleport program's run (program `Kernel`, read at any float instance `F`).

  @main is seven stretches of host operations (the three single-row heads `l_high`, `l_internal`, `l_ext`, then the
  folded bias `h_glob · W[0:128] + state · W[256:264] + b` and the two bf16 weight casts), ONE launch of the row-tiled
  teleport kernel over a grid of 50 points, and a tail of two host operations (the transpose of the kernel's column and
  the final concatenation of the four heads). This module states what the launch finds in every buffer (`V`: the
  launch memory pushed through the prefix), that @main IS prefix · launch · tail, the side conditions of the tail (it
  touches only unscoped buffers, allocates nothing, writes none of the kernel's six arrays), that no host operation
  writes an argument array, what a window's block at a grid point is, and how the frame claim's post follows from a run
  whose post names every array.
-/
import proofs.«148518_j32255204393220_1_alg».proof.Proof.Gen.Kernel.Launch
import proofs.«148518_j32255204393220_1_alg».proof.Proof.Gen.Kernel.Skeleton
import proofs.«148518_j32255204393220_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tele

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the launch finds -/

/-- Core `c`'s buffers when the kernel is launched: the launch memory after the seven prefix stretches. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same, read at a TensorCore reference. -/
abbrev V (c : Dev nD) (b : Ref sig .tc) : Buf (Elt F) ((c : Thread nD τ).loc b) := V0 m c (Proc.devRef .tc b)

/-- No host operation of this program allocates a buffer. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh0_5 : (hostOps0_5 : List (HloOp τ sig (Elt F))).Forall fun op => op.fresh = ∅ := by
  simp only [List.Forall]; repeat' constructor
theorem fresh0_6 : (hostOps0_6 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- @main is the prefix, the launch, the tail: run from memory `m` it reaches the launch with the buffers at `V`, and
    goes on with the two tail operations. -/
theorem main_around (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main
    [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨fresh0, fresh0_1, fresh0_2, fresh0_3, fresh0_4, fresh0_5, fresh0_6⟩) main_chain

/-! ## The tail's side conditions -/

/-- The transpose and the concatenation touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh1) op hop
/-- Each writes only its own result (`%36`, `%37`), which is none of the kernel's six arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, StableHlo.nary_writes, Finset.mem_singleton] <;> exact StableHlo.devRef_ne_of_ne (by decide)

/-! ## No host operation writes an argument -/

/-- Every host operation writes its own result buffer; that buffer is never the one at hand (decided per operation). -/
local macro "not_a_result" : tactic => `(tactic| (
  refine List.forall_iff_forall_mem.mp ?_
  simp only [hostOps0, hostOps0_1, hostOps0_2, hostOps0_3, hostOps0_4, hostOps0_5, hostOps0_6, hostOps1,
    List.flatten_cons, List.flatten_nil, List.append_nil, List.cons_append, List.nil_append, List.Forall,
    StableHlo.nullary_writes, StableHlo.unary_writes, StableHlo.binary_writes, StableHlo.nary_writes, Finset.mem_singleton]
  repeat' apply And.intro
  all_goals exact StableHlo.devRef_ne_of_ne (by decide)))

/-- A buffer no prefix operation writes is found by the launch as `m` has it. -/
theorem found_as_launched (c : Dev nD) (b : Ref sig .tc)
    (h : ∀ op ∈ List.flatten [hostOps0, hostOps0_1, hostOps0_2, hostOps0_3, hostOps0_4, hostOps0_5, (hostOps0_6 : List (HloOp τ sig (Elt F)))],
      Proc.devRef .tc b ∉ op.writes) :
    V m c b = m ((c : Thread nD τ).loc b) :=
  StableHlo.after_of_forall_not_mem (b := Proc.devRef .tc b) _ _ h

/-- A buffer that is none of the kernel's arrays, found as launched, and written by neither tail operation, ends as launched. -/
theorem ends_as_launched (dats : (p : Fin 1) → (c : Dev nD) → Dat τ (Elt F) Unit ℕ (UR sig nD τ) ℕ (cfgs p) c) (c : Dev nD) (b : Ref sig .tc)
    (harr : ∀ w, Pipeline.arrRef spec0 w ≠ b)
    (htail : ∀ op ∈ List.flatten [(hostOps1 : List (HloOp τ sig (Elt F)))], Proc.devRef .tc b ∉ op.writes)
    (hfound : V m c b = m ((c : Thread nD τ).loc b)) :
    Pipeline.afterTail₀ cfgs dats 0 (V0 m) [hostOps1] c b = m ((c : Thread nD τ).loc b) := by
  unfold Pipeline.afterTail₀
  rw [StableHlo.after_of_forall_not_mem (b := Proc.devRef .tc b) _ _ htail, Pipeline.withArrays_of_ne _ c (V0 m c) _ b harr]
  exact hfound

theorem V_arg0 (c : Dev nD) : V m c main_arg0 = m ((c : Thread nD τ).loc main_arg0) := found_as_launched m c _ (by not_a_result)
theorem V_arg1 (c : Dev nD) : V m c main_arg1 = m ((c : Thread nD τ).loc main_arg1) := found_as_launched m c _ (by not_a_result)
theorem V_arg2 (c : Dev nD) : V m c main_arg2 = m ((c : Thread nD τ).loc main_arg2) := found_as_launched m c _ (by not_a_result)
theorem V_arg3 (c : Dev nD) : V m c main_arg3 = m ((c : Thread nD τ).loc main_arg3) := found_as_launched m c _ (by not_a_result)
theorem V_arg4 (c : Dev nD) : V m c main_arg4 = m ((c : Thread nD τ).loc main_arg4) := found_as_launched m c _ (by not_a_result)
theorem V_arg5 (c : Dev nD) : V m c main_arg5 = m ((c : Thread nD τ).loc main_arg5) := found_as_launched m c _ (by not_a_result)
theorem V_arg6 (c : Dev nD) : V m c main_arg6 = m ((c : Thread nD τ).loc main_arg6) := found_as_launched m c _ (by not_a_result)
theorem V_arg7 (c : Dev nD) : V m c main_arg7 = m ((c : Thread nD τ).loc main_arg7) := found_as_launched m c _ (by not_a_result)
theorem V_arg8 (c : Dev nD) : V m c main_arg8 = m ((c : Thread nD τ).loc main_arg8) := found_as_launched m c _ (by not_a_result)
theorem V_arg9 (c : Dev nD) : V m c main_arg9 = m ((c : Thread nD τ).loc main_arg9) := found_as_launched m c _ (by not_a_result)
theorem V_arg10 (c : Dev nD) : V m c main_arg10 = m ((c : Thread nD τ).loc main_arg10) := found_as_launched m c _ (by not_a_result)
theorem V_arg11 (c : Dev nD) : V m c main_arg11 = m ((c : Thread nD τ).loc main_arg11) := found_as_launched m c _ (by not_a_result)
theorem V_arg12 (c : Dev nD) : V m c main_arg12 = m ((c : Thread nD τ).loc main_arg12) := found_as_launched m c _ (by not_a_result)
theorem V_arg13 (c : Dev nD) : V m c main_arg13 = m ((c : Thread nD τ).loc main_arg13) := found_as_launched m c _ (by not_a_result)
theorem V_arg14 (c : Dev nD) : V m c main_arg14 = m ((c : Thread nD τ).loc main_arg14) := found_as_launched m c _ (by not_a_result)
theorem V_arg15 (c : Dev nD) : V m c main_arg15 = m ((c : Thread nD τ).loc main_arg15) := found_as_launched m c _ (by not_a_result)
theorem V_arg16 (c : Dev nD) : V m c main_arg16 = m ((c : Thread nD τ).loc main_arg16) := found_as_launched m c _ (by not_a_result)
theorem V_arg17 (c : Dev nD) : V m c main_arg17 = m ((c : Thread nD τ).loc main_arg17) := found_as_launched m c _ (by not_a_result)
theorem V_arg18 (c : Dev nD) : V m c main_arg18 = m ((c : Thread nD τ).loc main_arg18) := found_as_launched m c _ (by not_a_result)
theorem V_arg19 (c : Dev nD) : V m c main_arg19 = m ((c : Thread nD τ).loc main_arg19) := found_as_launched m c _ (by not_a_result)

/-! ## The windows' blocks -/

/-- Window `w`'s block at grid point `t`, read off its array as the launch finds it: rows `8000·t … 8000·t + 7999` of
    `node_hidden` for window 0, the whole array for the four parameter windows. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at EVERY point, fetched there or not (the four parameter
    windows are fetched at the first point only, their block index never moving; no window is clipped or idle), for any
    proof data whose array is `V`'s and whose body leaves the block in place. One statement per input window: the
    block's index type reduces only at a literal window. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run that names every array -/

/-- The twenty argument arrays are as launched, on every core. -/
def ArgsKept (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)

/-- For any proof data whose arrays are the launch-time contents: a final state in which every array of the kernel holds
    what the proof data computes and every other unscoped buffer what the tail leaves has all twenty argument arrays as
    launched — `node_hidden` and `b_tp2` because an input window's array is never written, the other eighteen because
    no operation writes them. -/
theorem args_kept_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) : ArgsKept m r :=
  fun c => ⟨
      ((h c).1 0).trans (((dats 0 c).arrAt_in 0 rfl _).trans ((hA c 0).trans (V_arg0 m c))),
      ((h c).2 main_arg1 (Pipeline.mem_restRefs_of main_arg1 (by decide) (by decide))).trans (ends_as_launched m dats c _ (by decide) (by not_a_result) (V_arg1 m c)),
      ((h c).2 main_arg2 (Pipeline.mem_restRefs_of main_arg2 (by decide) (by decide))).trans (ends_as_launched m dats c _ (by decide) (by not_a_result) (V_arg2 m c)),
      ((h c).2 main_arg3 (Pipeline.mem_restRefs_of main_arg3 (by decide) (by decide))).trans (ends_as_launched m dats c _ (by decide) (by not_a_result) (V_arg3 m c)),
      ((h c).2 main_arg4 (Pipeline.mem_restRefs_of main_arg4 (by decide) (by decide))).trans (ends_as_launched m dats c _ (by decide) (by not_a_result) (V_arg4 m c)),
      ((h c).2 main_arg5 (Pipeline.mem_restRefs_of main_arg5 (by decide) (by decide))).trans (ends_as_launched m dats c _ (by decide) (by not_a_result) (V_arg5 m c)),
      ((h c).2 main_arg6 (Pipeline.mem_restRefs_of main_arg6 (by decide) (by decide))).trans (ends_as_launched m dats c _ (by decide) (by not_a_result) (V_arg6 m c)),
      ((h c).2 main_arg7 (Pipeline.mem_restRefs_of main_arg7 (by decide) (by decide))).trans (ends_as_launched m dats c _ (by decide) (by not_a_result) (V_arg7 m c)),
      ((h c).2 main_arg8 (Pipeline.mem_restRefs_of main_arg8 (by decide) (by decide))).trans (ends_as_launched m dats c _ (by decide) (by not_a_result) (V_arg8 m c)),
      ((h c).2 main_arg9 (Pipeline.mem_restRefs_of main_arg9 (by decide) (by decide))).trans (ends_as_launched m dats c _ (by decide) (by not_a_result) (V_arg9 m c)),
      ((h c).2 main_arg10 (Pipeline.mem_restRefs_of main_arg10 (by decide) (by decide))).trans (ends_as_launched m dats c _ (by decide) (by not_a_result) (V_arg10 m c)),
      ((h c).2 main_arg11 (Pipeline.mem_restRefs_of main_arg11 (by decide) (by decide))).trans (ends_as_launched m dats c _ (by decide) (by not_a_result) (V_arg11 m c)),
      ((h c).2 main_arg12 (Pipeline.mem_restRefs_of main_arg12 (by decide) (by decide))).trans (ends_as_launched m dats c _ (by decide) (by not_a_result) (V_arg12 m c)),
      ((h c).2 main_arg13 (Pipeline.mem_restRefs_of main_arg13 (by decide) (by decide))).trans (ends_as_launched m dats c _ (by decide) (by not_a_result) (V_arg13 m c)),
      ((h c).2 main_arg14 (Pipeline.mem_restRefs_of main_arg14 (by decide) (by decide))).trans (ends_as_launched m dats c _ (by decide) (by not_a_result) (V_arg14 m c)),
      ((h c).2 main_arg15 (Pipeline.mem_restRefs_of main_arg15 (by decide) (by decide))).trans (ends_as_launched m dats c _ (by decide) (by not_a_result) (V_arg15 m c)),
      ((h c).2 main_arg16 (Pipeline.mem_restRefs_of main_arg16 (by decide) (by decide))).trans (ends_as_launched m dats c _ (by decide) (by not_a_result) (V_arg16 m c)),
      ((h c).2 main_arg17 (Pipeline.mem_restRefs_of main_arg17 (by decide) (by decide))).trans (ends_as_launched m dats c _ (by decide) (by not_a_result) (V_arg17 m c)),
      ((h c).2 main_arg18 (Pipeline.mem_restRefs_of main_arg18 (by decide) (by decide))).trans (ends_as_launched m dats c _ (by decide) (by not_a_result) (V_arg18 m c)),
      ((h c).1 4).trans (((dats 0 c).arrAt_in 4 rfl _).trans ((hA c 4).trans (V_arg19 m c)))⟩

/-- The frame claim's post from a run that names every array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (ArgsKept m) :=
  (θ_run defs _ _).mono (fun r h => args_kept_of_post m dats hA r h) h

end Cert.Kernel.Tele

end
-- ==== Proof.KernelBody.lean ====
/-
  The teleport kernel's body and the run of its launch (program `Kernel`, at any float instance `F`).

  At a grid point the body loads its five input blocks whole — 8000 rows of `node_hidden`, the bf16 middle block of
  `W_tp1`, the folded bias row, the bf16 `W_tp2`, and `b_tp2` —, loads the output block (a value it never uses), and
  stores ONE value over the whole 8000 × 1 output block: `relu(x · W + bias) · w₂ + b₂`, the skeleton's payload of the
  five loads. So after the body the output's staging buffer holds that payload of the point's input blocks, whatever
  it held before, and every input buffer is as found. With that as the proof data, the launch theorem for a kernel
  between host operations gives a run of @main whose post names all six arrays and leaves every other unscoped buffer
  as the tail computes it; the frame claim is that run with the values forgotten.
-/
import proofs.«148518_j32255204393220_1_alg».proof.Proof.KernelHost

set_option maxRecDepth 16384

noncomputable section

namespace Cert.Kernel.Tele

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every one is a whole buffer -/

abbrev wholeX : Rect S8000x128 := Rect.unit (s := S8000x128) ![0, 0] S8000x128.size inb_S8000x128_S8000x128_0_0
abbrev wholeW : Rect S128x128 := Rect.unit (s := S128x128) ![0, 0] S128x128.size inb_S128x128_S128x128_0_0
abbrev wholeBias : Rect S1x128 := Rect.unit (s := S1x128) ![0, 0] S1x128.size inb_S1x128_S1x128_0_0
abbrev wholeW2 : Rect S128x1 := Rect.unit (s := S128x1) ![0, 0] S128x1.size inb_S128x1_S128x1_0_0
abbrev wholeB2 : Rect S1 := Rect.unit (s := S1) ![0] S1.size inb_S1_S1_0
abbrev wholeOut : Rect S8000x1 := Rect.unit (s := S8000x1) ![0, 0] S8000x1.size inb_S8000x1_S8000x1_0_0

/-! ## What the body leaves in the output block -/

/-- The output window's staging buffer after the body, from the five input blocks: its single store, over the whole
    buffer, of the payload `relu(x · W + bias) · w₂ + b₂`. -/
def outBlock (x : Vec F S8000x128 .f32) (w : Vec F S128x128 .bf16) (bias : Vec F S1x128 .f32) (w2 : Vec F S128x1 .bf16) (b2 : Vec F S1 .f32) :
    Vec F S8000x1 .f32 :=
  View.canon [⟨wholeOut, k0_pay1 (View.ld x wholeX) (View.ld w wholeW) (View.ld bias wholeBias) (View.ld w2 wholeW2) (View.ld b2 wholeB2)⟩]

/-- The one store covers the buffer. -/
theorem outBlock_cover (p : Vec F S8000x1 .f32) (y : S8000x1.Idx) :
    ∃ pc ∈ ([⟨wholeOut, p⟩] : List (View.Piece (Elt F) S8000x1 .f32)), y ∈ pc.1.set :=
  View.cover_of_tiled [⟨wholeOut, p⟩] S8000x1.size (by rfl) y

/-! ## The body's triple -/

set_option maxHeartbeats 1000000 in
/-- The body on whole staging memrefs — the inputs' at contents `x`, `w`, `bias`, `w2`, `b2`, the output's at anything —
    runs to a continuation that holds the inputs' as they were and the output's at `outBlock` of them. -/
theorem sound_kernel (c : Dev nD) (E : Set ℕ) (i : grid0.Coords)
    (arg1 : Memref sig .tc .vmem S8000x128 .f32) (harg1 : arg1.IsWhole) (arg2 : Memref sig .tc .vmem S128x128 .bf16) (harg2 : arg2.IsWhole)
    (arg3 : Memref sig .tc .vmem S1x128 .f32) (harg3 : arg3.IsWhole) (arg4 : Memref sig .tc .vmem S128x1 .bf16) (harg4 : arg4.IsWhole)
    (arg5 : Memref sig .tc .vmem S1 .f32) (harg5 : arg5.IsWhole) (arg6 : Memref sig .tc .vmem S8000x1 .f32) (harg6 : arg6.IsWhole)
    (x : Vec F S8000x128 .f32) (w : Vec F S128x128 .bf16) (bias : Vec F S1x128 .f32) (w2 : Vec F S128x1 .bf16) (b2 : Vec F S1 .f32)
    (K : PUnit → sProp 𝕄) :
    iprop(owns (c : Thread nD τ) arg1 fullShare x ∗ owns (c : Thread nD τ) arg2 fullShare w ∗ owns (c : Thread nD τ) arg3 fullShare bias
        ∗ owns (c : Thread nD τ) arg4 fullShare w2 ∗ owns (c : Thread nD τ) arg5 fullShare b2 ∗ (∃ d, owns (c : Thread nD τ) arg6 fullShare d)
        ∗ (iprop(owns (c : Thread nD τ) arg1 fullShare x ∗ owns (c : Thread nD τ) arg2 fullShare w ∗ owns (c : Thread nD τ) arg3 fullShare bias
            ∗ owns (c : Thread nD τ) arg4 fullShare w2 ∗ owns (c : Thread nD τ) arg5 fullShare b2
            ∗ owns (c : Thread nD τ) arg6 fullShare (outBlock x w bias w2 b2)) -∗ K ⟨⟩))
      ⊢ wp frame (wpE (defs₀ (F := F)) Variants.none c none) E
          (cc0__teleport_kernel i arg1 harg1 arg2 harg2 arg3 harg3 arg4 harg4 arg5 harg5 arg6 harg6) K := by
  simp only [cc0__teleport_kernel_eq_skeleton]; unfold cc0__teleport_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outBlock_cover _)

/-! ## The proof data -/

/-- The proof data of the launch on core `c`: each array as the launch finds it; after the body at point `t` each input
    buffer at its block and the output buffer at `outBlock` of the point's input blocks; nothing carried between points
    beyond what the launch itself carries; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
/-- What point `t` leaves in the output block. -/
theorem after_out (c : Dev nD) (t : Fin cfg0.N) :
    (dats m 0 c).after 5 t = outBlock (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d
theorem before_3 (c : Dev nD) (t : Fin cfg0.N) (d) : (dats m 0 c).before 3 t d = iblk m c 3 t :=
  before_in3 m (dats m 0 c) (A_eq m c 3) (after_3 m c) t d
theorem before_4 (c : Dev nD) (t : Fin cfg0.N) (d) : (dats m 0 c).before 4 t d = iblk m c 4 t :=
  before_in4 m (dats m 0 c) (A_eq m c 4) (after_4 m c) t d

/-! ## The body obligation -/

/-- What the body is called with at point `t`: the six current staging buffers, each at what the schedule put there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- And what it returns: the same buffers at the proof data's `after`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- At any point the input buffers hold their blocks, so the body's triple applies; the invariant and the core's
    signalling duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and in every final state each of
    the kernel's six arrays holds what the proof data computes (the five inputs their launch-time contents, the output
    the blocks the fifty points wrote back) and every other unscoped buffer what the two tail operations leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := main_around m Variants.none) (hA := A_eq m) (hΦ := fun _ _ => rfl)

/-- The frame claim, at any `F`: @main runs to the end, faults nowhere, and leaves its twenty arguments unchanged. -/
theorem frame : θ_run defs (onTc (τ := τ) (main (F := F))) ⟨m, fun _ => 0, ρ⟩ (ArgsKept m) :=
  frame_of m ρ (dats m) (A_eq m) (run_main m ρ)

end Cert.Kernel.Tele

end
-- ==== Proof.KernelIdealHost.lean ====
/-
  The host side of the teleport program's run (program `KernelIdeal`, read at any float instance `F`).

  @main is seven stretches of host operations (the three single-row heads `l_high`, `l_internal`, `l_ext`, then the
  folded bias `h_glob · W[0:128] + state · W[256:264] + b` and the two bf16 weight casts), ONE launch of the row-tiled
  teleport kernel over a grid of 50 points, and a tail of two host operations (the transpose of the kernel's column and
  the final concatenation of the four heads). This module states what the launch finds in every buffer (`V`: the
  launch memory pushed through the prefix), that @main IS prefix · launch · tail, the side conditions of the tail (it
  touches only unscoped buffers, allocates nothing, writes none of the kernel's six arrays), that no host operation
  writes an argument array, what a window's block at a grid point is, and how the frame claim's post follows from a run
  whose post names every array.
-/
import proofs.«148518_j32255204393220_1_alg».proof.Proof.Gen.KernelIdeal.Launch
import proofs.«148518_j32255204393220_1_alg».proof.Proof.Gen.KernelIdeal.Skeleton
import proofs.«148518_j32255204393220_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tele

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the launch finds -/

/-- Core `c`'s buffers when the kernel is launched: the launch memory after the seven prefix stretches. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same, read at a TensorCore reference. -/
abbrev V (c : Dev nD) (b : Ref sig .tc) : Buf (Elt F) ((c : Thread nD τ).loc b) := V0 m c (Proc.devRef .tc b)

/-- No host operation of this program allocates a buffer. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh0_5 : (hostOps0_5 : List (HloOp τ sig (Elt F))).Forall fun op => op.fresh = ∅ := by
  simp only [List.Forall]; repeat' constructor
theorem fresh0_6 : (hostOps0_6 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- @main is the prefix, the launch, the tail: run from memory `m` it reaches the launch with the buffers at `V`, and
    goes on with the two tail operations. -/
theorem main_around (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main
    [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨fresh0, fresh0_1, fresh0_2, fresh0_3, fresh0_4, fresh0_5, fresh0_6⟩) main_chain

/-! ## The tail's side conditions -/

/-- The transpose and the concatenation touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh1) op hop
/-- Each writes only its own result (`%36`, `%37`), which is none of the kernel's six arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, StableHlo.nary_writes, Finset.mem_singleton] <;> exact StableHlo.devRef_ne_of_ne (by decide)

/-! ## No host operation writes an argument -/

/-- Every host operation writes its own result buffer; that buffer is never the one at hand (decided per operation). -/
local macro "not_a_result" : tactic => `(tactic| (
  refine List.forall_iff_forall_mem.mp ?_
  simp only [hostOps0, hostOps0_1, hostOps0_2, hostOps0_3, hostOps0_4, hostOps0_5, hostOps0_6, hostOps1,
    List.flatten_cons, List.flatten_nil, List.append_nil, List.cons_append, List.nil_append, List.Forall,
    StableHlo.nullary_writes, StableHlo.unary_writes, StableHlo.binary_writes, StableHlo.nary_writes, Finset.mem_singleton]
  repeat' apply And.intro
  all_goals exact StableHlo.devRef_ne_of_ne (by decide)))

/-- A buffer no prefix operation writes is found by the launch as `m` has it. -/
theorem found_as_launched (c : Dev nD) (b : Ref sig .tc)
    (h : ∀ op ∈ List.flatten [hostOps0, hostOps0_1, hostOps0_2, hostOps0_3, hostOps0_4, hostOps0_5, (hostOps0_6 : List (HloOp τ sig (Elt F)))],
      Proc.devRef .tc b ∉ op.writes) :
    V m c b = m ((c : Thread nD τ).loc b) :=
  StableHlo.after_of_forall_not_mem (b := Proc.devRef .tc b) _ _ h

/-- A buffer that is none of the kernel's arrays, found as launched, and written by neither tail operation, ends as launched. -/
theorem ends_as_launched (dats : (p : Fin 1) → (c : Dev nD) → Dat τ (Elt F) Unit ℕ (UR sig nD τ) ℕ (cfgs p) c) (c : Dev nD) (b : Ref sig .tc)
    (harr : ∀ w, Pipeline.arrRef spec0 w ≠ b)
    (htail : ∀ op ∈ List.flatten [(hostOps1 : List (HloOp τ sig (Elt F)))], Proc.devRef .tc b ∉ op.writes)
    (hfound : V m c b = m ((c : Thread nD τ).loc b)) :
    Pipeline.afterTail₀ cfgs dats 0 (V0 m) [hostOps1] c b = m ((c : Thread nD τ).loc b) := by
  unfold Pipeline.afterTail₀
  rw [StableHlo.after_of_forall_not_mem (b := Proc.devRef .tc b) _ _ htail, Pipeline.withArrays_of_ne _ c (V0 m c) _ b harr]
  exact hfound

theorem V_arg0 (c : Dev nD) : V m c main_arg0 = m ((c : Thread nD τ).loc main_arg0) := found_as_launched m c _ (by not_a_result)
theorem V_arg1 (c : Dev nD) : V m c main_arg1 = m ((c : Thread nD τ).loc main_arg1) := found_as_launched m c _ (by not_a_result)
theorem V_arg2 (c : Dev nD) : V m c main_arg2 = m ((c : Thread nD τ).loc main_arg2) := found_as_launched m c _ (by not_a_result)
theorem V_arg3 (c : Dev nD) : V m c main_arg3 = m ((c : Thread nD τ).loc main_arg3) := found_as_launched m c _ (by not_a_result)
theorem V_arg4 (c : Dev nD) : V m c main_arg4 = m ((c : Thread nD τ).loc main_arg4) := found_as_launched m c _ (by not_a_result)
theorem V_arg5 (c : Dev nD) : V m c main_arg5 = m ((c : Thread nD τ).loc main_arg5) := found_as_launched m c _ (by not_a_result)
theorem V_arg6 (c : Dev nD) : V m c main_arg6 = m ((c : Thread nD τ).loc main_arg6) := found_as_launched m c _ (by not_a_result)
theorem V_arg7 (c : Dev nD) : V m c main_arg7 = m ((c : Thread nD τ).loc main_arg7) := found_as_launched m c _ (by not_a_result)
theorem V_arg8 (c : Dev nD) : V m c main_arg8 = m ((c : Thread nD τ).loc main_arg8) := found_as_launched m c _ (by not_a_result)
theorem V_arg9 (c : Dev nD) : V m c main_arg9 = m ((c : Thread nD τ).loc main_arg9) := found_as_launched m c _ (by not_a_result)
theorem V_arg10 (c : Dev nD) : V m c main_arg10 = m ((c : Thread nD τ).loc main_arg10) := found_as_launched m c _ (by not_a_result)
theorem V_arg11 (c : Dev nD) : V m c main_arg11 = m ((c : Thread nD τ).loc main_arg11) := found_as_launched m c _ (by not_a_result)
theorem V_arg12 (c : Dev nD) : V m c main_arg12 = m ((c : Thread nD τ).loc main_arg12) := found_as_launched m c _ (by not_a_result)
theorem V_arg13 (c : Dev nD) : V m c main_arg13 = m ((c : Thread nD τ).loc main_arg13) := found_as_launched m c _ (by not_a_result)
theorem V_arg14 (c : Dev nD) : V m c main_arg14 = m ((c : Thread nD τ).loc main_arg14) := found_as_launched m c _ (by not_a_result)
theorem V_arg15 (c : Dev nD) : V m c main_arg15 = m ((c : Thread nD τ).loc main_arg15) := found_as_launched m c _ (by not_a_result)
theorem V_arg16 (c : Dev nD) : V m c main_arg16 = m ((c : Thread nD τ).loc main_arg16) := found_as_launched m c _ (by not_a_result)
theorem V_arg17 (c : Dev nD) : V m c main_arg17 = m ((c : Thread nD τ).loc main_arg17) := found_as_launched m c _ (by not_a_result)
theorem V_arg18 (c : Dev nD) : V m c main_arg18 = m ((c : Thread nD τ).loc main_arg18) := found_as_launched m c _ (by not_a_result)
theorem V_arg19 (c : Dev nD) : V m c main_arg19 = m ((c : Thread nD τ).loc main_arg19) := found_as_launched m c _ (by not_a_result)

/-! ## The windows' blocks -/

/-- Window `w`'s block at grid point `t`, read off its array as the launch finds it: rows `8000·t … 8000·t + 7999` of
    `node_hidden` for window 0, the whole array for the four parameter windows. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at EVERY point, fetched there or not (the four parameter
    windows are fetched at the first point only, their block index never moving; no window is clipped or idle), for any
    proof data whose array is `V`'s and whose body leaves the block in place. One statement per input window: the
    block's index type reduces only at a literal window. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run that names every array -/

/-- The twenty argument arrays are as launched, on every core. -/
def ArgsKept (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)

/-- For any proof data whose arrays are the launch-time contents: a final state in which every array of the kernel holds
    what the proof data computes and every other unscoped buffer what the tail leaves has all twenty argument arrays as
    launched — `node_hidden` and `b_tp2` because an input window's array is never written, the other eighteen because
    no operation writes them. -/
theorem args_kept_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) : ArgsKept m r :=
  fun c => ⟨
      ((h c).1 0).trans (((dats 0 c).arrAt_in 0 rfl _).trans ((hA c 0).trans (V_arg0 m c))),
      ((h c).2 main_arg1 (Pipeline.mem_restRefs_of main_arg1 (by decide) (by decide))).trans (ends_as_launched m dats c _ (by decide) (by not_a_result) (V_arg1 m c)),
      ((h c).2 main_arg2 (Pipeline.mem_restRefs_of main_arg2 (by decide) (by decide))).trans (ends_as_launched m dats c _ (by decide) (by not_a_result) (V_arg2 m c)),
      ((h c).2 main_arg3 (Pipeline.mem_restRefs_of main_arg3 (by decide) (by decide))).trans (ends_as_launched m dats c _ (by decide) (by not_a_result) (V_arg3 m c)),
      ((h c).2 main_arg4 (Pipeline.mem_restRefs_of main_arg4 (by decide) (by decide))).trans (ends_as_launched m dats c _ (by decide) (by not_a_result) (V_arg4 m c)),
      ((h c).2 main_arg5 (Pipeline.mem_restRefs_of main_arg5 (by decide) (by decide))).trans (ends_as_launched m dats c _ (by decide) (by not_a_result) (V_arg5 m c)),
      ((h c).2 main_arg6 (Pipeline.mem_restRefs_of main_arg6 (by decide) (by decide))).trans (ends_as_launched m dats c _ (by decide) (by not_a_result) (V_arg6 m c)),
      ((h c).2 main_arg7 (Pipeline.mem_restRefs_of main_arg7 (by decide) (by decide))).trans (ends_as_launched m dats c _ (by decide) (by not_a_result) (V_arg7 m c)),
      ((h c).2 main_arg8 (Pipeline.mem_restRefs_of main_arg8 (by decide) (by decide))).trans (ends_as_launched m dats c _ (by decide) (by not_a_result) (V_arg8 m c)),
      ((h c).2 main_arg9 (Pipeline.mem_restRefs_of main_arg9 (by decide) (by decide))).trans (ends_as_launched m dats c _ (by decide) (by not_a_result) (V_arg9 m c)),
      ((h c).2 main_arg10 (Pipeline.mem_restRefs_of main_arg10 (by decide) (by decide))).trans (ends_as_launched m dats c _ (by decide) (by not_a_result) (V_arg10 m c)),
      ((h c).2 main_arg11 (Pipeline.mem_restRefs_of main_arg11 (by decide) (by decide))).trans (ends_as_launched m dats c _ (by decide) (by not_a_result) (V_arg11 m c)),
      ((h c).2 main_arg12 (Pipeline.mem_restRefs_of main_arg12 (by decide) (by decide))).trans (ends_as_launched m dats c _ (by decide) (by not_a_result) (V_arg12 m c)),
      ((h c).2 main_arg13 (Pipeline.mem_restRefs_of main_arg13 (by decide) (by decide))).trans (ends_as_launched m dats c _ (by decide) (by not_a_result) (V_arg13 m c)),
      ((h c).2 main_arg14 (Pipeline.mem_restRefs_of main_arg14 (by decide) (by decide))).trans (ends_as_launched m dats c _ (by decide) (by not_a_result) (V_arg14 m c)),
      ((h c).2 main_arg15 (Pipeline.mem_restRefs_of main_arg15 (by decide) (by decide))).trans (ends_as_launched m dats c _ (by decide) (by not_a_result) (V_arg15 m c)),
      ((h c).2 main_arg16 (Pipeline.mem_restRefs_of main_arg16 (by decide) (by decide))).trans (ends_as_launched m dats c _ (by decide) (by not_a_result) (V_arg16 m c)),
      ((h c).2 main_arg17 (Pipeline.mem_restRefs_of main_arg17 (by decide) (by decide))).trans (ends_as_launched m dats c _ (by decide) (by not_a_result) (V_arg17 m c)),
      ((h c).2 main_arg18 (Pipeline.mem_restRefs_of main_arg18 (by decide) (by decide))).trans (ends_as_launched m dats c _ (by decide) (by not_a_result) (V_arg18 m c)),
      ((h c).1 4).trans (((dats 0 c).arrAt_in 4 rfl _).trans ((hA c 4).trans (V_arg19 m c)))⟩

/-- The frame claim's post from a run that names every array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (ArgsKept m) :=
  (θ_run defs _ _).mono (fun r h => args_kept_of_post m dats hA r h) h

end Cert.KernelIdeal.Tele

end
-- ==== Proof.KernelIdealBody.lean ====
/-
  The teleport kernel's body and the run of its launch (program `KernelIdeal`, at any float instance `F`).

  At a grid point the body loads its five input blocks whole — 8000 rows of `node_hidden`, the bf16 middle block of
  `W_tp1`, the folded bias row, the bf16 `W_tp2`, and `b_tp2` —, loads the output block (a value it never uses), and
  stores ONE value over the whole 8000 × 1 output block: `relu(x · W + bias) · w₂ + b₂`, the skeleton's payload of the
  five loads. So after the body the output's staging buffer holds that payload of the point's input blocks, whatever
  it held before, and every input buffer is as found. With that as the proof data, the launch theorem for a kernel
  between host operations gives a run of @main whose post names all six arrays and leaves every other unscoped buffer
  as the tail computes it; the frame claim is that run with the values forgotten.
-/
import proofs.«148518_j32255204393220_1_alg».proof.Proof.KernelIdealHost

set_option maxRecDepth 16384

noncomputable section

namespace Cert.KernelIdeal.Tele

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every one is a whole buffer -/

abbrev wholeX : Rect S8000x128 := Rect.unit (s := S8000x128) ![0, 0] S8000x128.size inb_S8000x128_S8000x128_0_0
abbrev wholeW : Rect S128x128 := Rect.unit (s := S128x128) ![0, 0] S128x128.size inb_S128x128_S128x128_0_0
abbrev wholeBias : Rect S1x128 := Rect.unit (s := S1x128) ![0, 0] S1x128.size inb_S1x128_S1x128_0_0
abbrev wholeW2 : Rect S128x1 := Rect.unit (s := S128x1) ![0, 0] S128x1.size inb_S128x1_S128x1_0_0
abbrev wholeB2 : Rect S1 := Rect.unit (s := S1) ![0] S1.size inb_S1_S1_0
abbrev wholeOut : Rect S8000x1 := Rect.unit (s := S8000x1) ![0, 0] S8000x1.size inb_S8000x1_S8000x1_0_0

/-! ## What the body leaves in the output block -/

/-- The output window's staging buffer after the body, from the five input blocks: its single store, over the whole
    buffer, of the payload `relu(x · W + bias) · w₂ + b₂`. -/
def outBlock (x : Vec F S8000x128 .f32) (w : Vec F S128x128 .bf16) (bias : Vec F S1x128 .f32) (w2 : Vec F S128x1 .bf16) (b2 : Vec F S1 .f32) :
    Vec F S8000x1 .f32 :=
  View.canon [⟨wholeOut, k0_pay1 (View.ld x wholeX) (View.ld w wholeW) (View.ld bias wholeBias) (View.ld w2 wholeW2) (View.ld b2 wholeB2)⟩]

/-- The one store covers the buffer. -/
theorem outBlock_cover (p : Vec F S8000x1 .f32) (y : S8000x1.Idx) :
    ∃ pc ∈ ([⟨wholeOut, p⟩] : List (View.Piece (Elt F) S8000x1 .f32)), y ∈ pc.1.set :=
  View.cover_of_tiled [⟨wholeOut, p⟩] S8000x1.size (by rfl) y

/-! ## The body's triple -/

set_option maxHeartbeats 1000000 in
/-- The body on whole staging memrefs — the inputs' at contents `x`, `w`, `bias`, `w2`, `b2`, the output's at anything —
    runs to a continuation that holds the inputs' as they were and the output's at `outBlock` of them. -/
theorem sound_kernel (c : Dev nD) (E : Set ℕ) (i : grid0.Coords)
    (arg1 : Memref sig .tc .vmem S8000x128 .f32) (harg1 : arg1.IsWhole) (arg2 : Memref sig .tc .vmem S128x128 .bf16) (harg2 : arg2.IsWhole)
    (arg3 : Memref sig .tc .vmem S1x128 .f32) (harg3 : arg3.IsWhole) (arg4 : Memref sig .tc .vmem S128x1 .bf16) (harg4 : arg4.IsWhole)
    (arg5 : Memref sig .tc .vmem S1 .f32) (harg5 : arg5.IsWhole) (arg6 : Memref sig .tc .vmem S8000x1 .f32) (harg6 : arg6.IsWhole)
    (x : Vec F S8000x128 .f32) (w : Vec F S128x128 .bf16) (bias : Vec F S1x128 .f32) (w2 : Vec F S128x1 .bf16) (b2 : Vec F S1 .f32)
    (K : PUnit → sProp 𝕄) :
    iprop(owns (c : Thread nD τ) arg1 fullShare x ∗ owns (c : Thread nD τ) arg2 fullShare w ∗ owns (c : Thread nD τ) arg3 fullShare bias
        ∗ owns (c : Thread nD τ) arg4 fullShare w2 ∗ owns (c : Thread nD τ) arg5 fullShare b2 ∗ (∃ d, owns (c : Thread nD τ) arg6 fullShare d)
        ∗ (iprop(owns (c : Thread nD τ) arg1 fullShare x ∗ owns (c : Thread nD τ) arg2 fullShare w ∗ owns (c : Thread nD τ) arg3 fullShare bias
            ∗ owns (c : Thread nD τ) arg4 fullShare w2 ∗ owns (c : Thread nD τ) arg5 fullShare b2
            ∗ owns (c : Thread nD τ) arg6 fullShare (outBlock x w bias w2 b2)) -∗ K ⟨⟩))
      ⊢ wp frame (wpE (defs₀ (F := F)) Variants.none c none) E
          (cc0__teleport_kernel i arg1 harg1 arg2 harg2 arg3 harg3 arg4 harg4 arg5 harg5 arg6 harg6) K := by
  simp only [cc0__teleport_kernel_eq_skeleton]; unfold cc0__teleport_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outBlock_cover _)

/-! ## The proof data -/

/-- The proof data of the launch on core `c`: each array as the launch finds it; after the body at point `t` each input
    buffer at its block and the output buffer at `outBlock` of the point's input blocks; nothing carried between points
    beyond what the launch itself carries; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
/-- What point `t` leaves in the output block. -/
theorem after_out (c : Dev nD) (t : Fin cfg0.N) :
    (dats m 0 c).after 5 t = outBlock (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d
theorem before_3 (c : Dev nD) (t : Fin cfg0.N) (d) : (dats m 0 c).before 3 t d = iblk m c 3 t :=
  before_in3 m (dats m 0 c) (A_eq m c 3) (after_3 m c) t d
theorem before_4 (c : Dev nD) (t : Fin cfg0.N) (d) : (dats m 0 c).before 4 t d = iblk m c 4 t :=
  before_in4 m (dats m 0 c) (A_eq m c 4) (after_4 m c) t d

/-! ## The body obligation -/

/-- What the body is called with at point `t`: the six current staging buffers, each at what the schedule put there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- And what it returns: the same buffers at the proof data's `after`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- At any point the input buffers hold their blocks, so the body's triple applies; the invariant and the core's
    signalling duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and in every final state each of
    the kernel's six arrays holds what the proof data computes (the five inputs their launch-time contents, the output
    the blocks the fifty points wrote back) and every other unscoped buffer what the two tail operations leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := main_around m Variants.none) (hA := A_eq m) (hΦ := fun _ _ => rfl)

/-- The frame claim, at any `F`: @main runs to the end, faults nowhere, and leaves its twenty arguments unchanged. -/
theorem frame : θ_run defs (onTc (τ := τ) (main (F := F))) ⟨m, fun _ => 0, ρ⟩ (ArgsKept m) :=
  frame_of m ρ (dats m) (A_eq m) (run_main m ρ)

end Cert.KernelIdeal.Tele

end
-- ==== Proof.TeleSpec.lean ====
/-
  The teleport head as mathematics, over the extended reals.

  For one node row `x` (128 numbers), the global row `hg` (128) and the state row `st` (8), the first layer's
  pre-activation at hidden unit `j` is

      ∑ k < 264, [hg, x, st] k · W k j  +  b j                                            (the concatenated form)

  and, splitting the 264 rows of `W` into its blocks `[0, 128)`, `[128, 256)`, `[256, 264)`,

      ∑ k < 128, x k · W (128 + k) j  +  ((∑ k < 128, hg k · W k j + ∑ k < 8, st k · W (256 + k) j) + b j)   (the folded form)

  in which everything that does not depend on the node is one bias. The two are equal because a finite sum over
  `Fin 264` is the sum of its three stretches and `+` on the extended reals is commutative and associative — no
  distributivity, so no finiteness is needed. The node's score is `∑ j < 128, max (h j) 0 · w₂ j + b₂` of either.
-/
import Idealize.ShloMosaic.PureOps.Ideal
import Mathlib.Algebra.BigOperators.Fin

noncomputable section

open scoped BigOperators

namespace Cert.TeleSpec

/-- The concatenated feature row `[hg, x, st]`: entry `k` comes from `hg` below 128, from `x` below 256, from `st` after. -/
def catRow (hg x : Fin 128 → EReal) (st : Fin 8 → EReal) (k : Fin 264) : EReal :=
  if h : k.val < 128 then hg ⟨k.val, h⟩
  else if h' : k.val < 256 then x ⟨k.val - 128, by omega⟩
  else st ⟨k.val - 256, by omega⟩

/-- The first layer at hidden unit `j`, the concatenated way. -/
def hiddenCat (hg x : Fin 128 → EReal) (st : Fin 8 → EReal) (W : Fin 264 → Fin 128 → EReal) (b : Fin 128 → EReal) (j : Fin 128) : EReal :=
  (∑ k : Fin 264, catRow hg x st k * W k j) + b j

/-- What does not depend on the node: the global and the state rows against their blocks of `W`, plus the bias. -/
def foldedBias (hg : Fin 128 → EReal) (st : Fin 8 → EReal) (W : Fin 264 → Fin 128 → EReal) (b : Fin 128 → EReal) (j : Fin 128) : EReal :=
  ((∑ k : Fin 128, hg k * W ⟨k.val, by omega⟩ j) + (∑ k : Fin 8, st k * W ⟨256 + k.val, by omega⟩ j)) + b j

/-- The first layer at hidden unit `j`, the folded way: the node row against the middle block of `W`, plus the folded bias. -/
def hiddenFolded (hg x : Fin 128 → EReal) (st : Fin 8 → EReal) (W : Fin 264 → Fin 128 → EReal) (b : Fin 128 → EReal) (j : Fin 128) : EReal :=
  (∑ k : Fin 128, x k * W ⟨128 + k.val, by omega⟩ j) + foldedBias hg st W b j

/-- A sum over the 264 feature rows is the sum of its three stretches. -/
theorem sum_three_stretches (f : Fin 264 → EReal) :
    ∑ k : Fin 264, f k = (∑ k : Fin 128, f ⟨k.val, by omega⟩) + (∑ k : Fin 128, f ⟨128 + k.val, by omega⟩)
      + (∑ k : Fin 8, f ⟨256 + k.val, by omega⟩) := by
  have h1 := Fin.sum_univ_add (a := 256) (b := 8) (fun k : Fin (256 + 8) => f ⟨k.val, k.isLt⟩)
  have h2 := Fin.sum_univ_add (a := 128) (b := 128) (fun k : Fin (128 + 128) => f ⟨k.val, by have := k.isLt; omega⟩)
  have e0 : ∑ k : Fin 264, f k = ∑ k : Fin (256 + 8), f ⟨k.val, k.isLt⟩ := rfl
  rw [e0, h1]
  have e1 : ∑ k : Fin 256, f ⟨(Fin.castAdd 8 k).val, (Fin.castAdd 8 k).isLt⟩
      = ∑ k : Fin (128 + 128), f ⟨k.val, by have := k.isLt; omega⟩ := rfl
  rw [e1, h2]
  rfl

/-- The folded form is the concatenated form. -/
theorem hiddenFolded_eq (hg x : Fin 128 → EReal) (st : Fin 8 → EReal) (W : Fin 264 → Fin 128 → EReal) (b : Fin 128 → EReal) (j : Fin 128) :
    hiddenFolded hg x st W b j = hiddenCat hg x st W b j := by
  unfold hiddenFolded foldedBias hiddenCat
  rw [sum_three_stretches]
  have a1 : ∀ k : Fin 128, catRow hg x st ⟨k.val, by omega⟩ = hg k := fun k => by
    unfold catRow; rw [dif_pos (show (⟨k.val, _⟩ : Fin 264).val < 128 from k.isLt)]
  have a2 : ∀ k : Fin 128, catRow hg x st ⟨128 + k.val, by omega⟩ = x k := fun k => by
    unfold catRow
    rw [dif_neg (show ¬ (⟨128 + k.val, _⟩ : Fin 264).val < 128 from by show ¬ 128 + k.val < 128; omega),
      dif_pos (show (⟨128 + k.val, _⟩ : Fin 264).val < 256 from by show 128 + k.val < 256; have := k.isLt; omega)]
    congr 1; apply Fin.ext; show 128 + k.val - 128 = k.val; omega
  have a3 : ∀ k : Fin 8, catRow hg x st ⟨256 + k.val, by omega⟩ = st k := fun k => by
    unfold catRow
    rw [dif_neg (show ¬ (⟨256 + k.val, _⟩ : Fin 264).val < 128 from by show ¬ 256 + k.val < 128; omega),
      dif_neg (show ¬ (⟨256 + k.val, _⟩ : Fin 264).val < 256 from by show ¬ 256 + k.val < 256; omega)]
    congr 1; apply Fin.ext; show 256 + k.val - 256 = k.val; omega
  simp only [a1, a2, a3]
  ac_rfl

/-- The node's score from its hidden row: relu, the second layer's column, its bias. -/
def score (h : Fin 128 → EReal) (w2 : Fin 128 → EReal) (b2 : EReal) : EReal :=
  (∑ j : Fin 128, max (h j) 0 * w2 j) + b2

end Cert.TeleSpec

end
-- ==== Proof.KernelIdealPayload.lean ====
/-
  The teleport kernel's stored value, read at an index (the idealized kernel, `F := Ideal`).

  Row `p` of the 8000 × 1 value the body stores is `∑ j, max (∑ k, x p k · w k j + bias 0 j) 0 · w₂ j 0 + b₂ 0`: the casts to
  bf16 are the identity on extended reals, each matrix product into a zero accumulator is the plain sum, and the two
  broadcasts repeat the bias row and the scalar `b₂`.
-/
import proofs.«148518_j32255204393220_1_alg».proof.Proof.Gen.KernelIdeal.Skeleton
import proofs.«148518_j32255204393220_1_alg».proof.Proof.TeleSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tele

open Cert.KernelIdeal Cert.KernelIdeal.Gen
open Idealize.ShloMosaic Idealize.ShloMosaic.TcCoe Idealize.SL.Sem Idealize.ShloMosaic.ValueIdx
open scoped BigOperators

/-! ## The two matrix products at an index

Each product contracts the left operand's axis 1 with the right operand's axis 0 and has no batch axis, so at output
index `(p, c)` and contraction coordinate `k` it reads the left operand at `(p, k)` and the right at `(k, c)`. -/

/-- The left operand's index of the first product keeps the output's row on axis 0. -/
theorem lhs_first_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
/-- … and carries the contraction coordinate on axis 1. -/
theorem lhs_first_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
/-- The right operand's index of the first product carries the contraction coordinate on axis 0 … -/
theorem rhs_first_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
/-- … and keeps the output's column on axis 1. -/
theorem rhs_first_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- Into a zero accumulator the first product at `(p, c)` is `∑ k, a p k · b k c`. -/
theorem matmul_first_apply (a : FVec Ideal S8000x128 .bf16) (b : FVec Ideal S128x128 .bf16) (p : Fin 8000) (c : Fin 128) :
    matmul dot_S8000x128_S128x128_S8000x128_1_0_0_1_n_n none a b (constant (F := Ideal) S8000x128 .f32 0x00000000#32) (ix2 p c)
      = ∑ k : Fin 128, a (ix2 p k) * b (ix2 k c) := by
  refine (Ideal.matmul_constant_zero_apply dot_S8000x128_S128x128_S8000x128_1_0_0_1_n_n none a b (ix2 p c)).trans ?_
  rw [← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 p c) ((ValueIdx.contrEquiv1 dot_S8000x128_S128x128_S8000x128_1_0_0_1_n_n 128 rfl rfl).symm k) = ix2 p k := funext fun ax => Fin.ext (by
    match ax with
    | ⟨0, _⟩ => exact lhs_first_0 _ _
    | ⟨1, _⟩ => exact (lhs_first_1 _ _).trans hk)
  have er : dot_S8000x128_S128x128_S8000x128_1_0_0_1_n_n.rhsIdx (ix2 p c) ((ValueIdx.contrEquiv1 dot_S8000x128_S128x128_S8000x128_1_0_0_1_n_n 128 rfl rfl).symm k) = ix2 k c := funext fun ax => Fin.ext (by
    match ax with
    | ⟨0, _⟩ => exact (rhs_first_0 _ _).trans hk
    | ⟨1, _⟩ => exact rhs_first_1 _ _)
  rw [el, er]

/-- The left operand's index of the second product keeps the output's row on axis 0. -/
theorem lhs_second_0 (i : S8000x1.Idx) (q : dot_S8000x128_S128x1_S8000x1_1_0_0_1_n_n.contr.Idx) :
    (dot_S8000x128_S128x1_S8000x1_1_0_0_1_n_n.lhsIdx i q 0).val = (i 0).val := by
  unfold DotDims.lhsIdx
  rw [dif_neg (show ¬(0 : Fin S8000x128.rank) ∈ dot_S8000x128_S128x1_S8000x1_1_0_0_1_n_n.lhsBatch by decide), dif_pos (show (0 : Fin S8000x128.rank) ∈ dot_S8000x128_S128x1_S8000x1_1_0_0_1_n_n.lhsNonContracting by decide)]
  rfl
/-- … and carries the contraction coordinate on axis 1. -/
theorem lhs_second_1 (i : S8000x1.Idx) (q : dot_S8000x128_S128x1_S8000x1_1_0_0_1_n_n.contr.Idx) :
    (dot_S8000x128_S128x1_S8000x1_1_0_0_1_n_n.lhsIdx i q 1).val = (q ⟨0, by decide⟩).val :=
  dot_S8000x128_S128x1_S8000x1_1_0_0_1_n_n.lhsIdx_val_of_single rfl i q
/-- The right operand's index of the second product carries the contraction coordinate on axis 0 … -/
theorem rhs_second_0 (i : S8000x1.Idx) (q : dot_S8000x128_S128x1_S8000x1_1_0_0_1_n_n.contr.Idx) :
    (dot_S8000x128_S128x1_S8000x1_1_0_0_1_n_n.rhsIdx i q 0).val = (q ⟨0, by decide⟩).val :=
  dot_S8000x128_S128x1_S8000x1_1_0_0_1_n_n.rhsIdx_val_of_single rfl i q
/-- … and keeps the output's column on axis 1. -/
theorem rhs_second_1 (i : S8000x1.Idx) (q : dot_S8000x128_S128x1_S8000x1_1_0_0_1_n_n.contr.Idx) :
    (dot_S8000x128_S128x1_S8000x1_1_0_0_1_n_n.rhsIdx i q 1).val = (i 1).val := by
  unfold DotDims.rhsIdx
  rw [dif_neg (show ¬(1 : Fin S128x1.rank) ∈ dot_S8000x128_S128x1_S8000x1_1_0_0_1_n_n.rhsBatch by decide), dif_pos (show (1 : Fin S128x1.rank) ∈ dot_S8000x128_S128x1_S8000x1_1_0_0_1_n_n.rhsNonContracting by decide)]
  rfl

/-- Into a zero accumulator the second product at `(p, c)` is `∑ k, a p k · b k c`. -/
theorem matmul_second_apply (a : FVec Ideal S8000x128 .bf16) (b : FVec Ideal S128x1 .bf16) (p : Fin 8000) (c : Fin 1) :
    matmul dot_S8000x128_S128x1_S8000x1_1_0_0_1_n_n none a b (constant (F := Ideal) S8000x1 .f32 0x00000000#32) (ix2 p c)
      = ∑ k : Fin 128, a (ix2 p k) * b (ix2 k c) := by
  refine (Ideal.matmul_constant_zero_apply dot_S8000x128_S128x1_S8000x1_1_0_0_1_n_n none a b (ix2 p c)).trans ?_
  rw [← Equiv.sum_comp (ValueIdx.contrEquiv1 dot_S8000x128_S128x1_S8000x1_1_0_0_1_n_n 128 rfl rfl).symm]
  refine Finset.sum_congr rfl fun k _ => ?_
  have hk := ValueIdx.contrEquiv1_symm_val dot_S8000x128_S128x1_S8000x1_1_0_0_1_n_n 128 rfl rfl k
  have el : dot_S8000x128_S128x1_S8000x1_1_0_0_1_n_n.lhsIdx (ix2 p c) ((ValueIdx.contrEquiv1 dot_S8000x128_S128x1_S8000x1_1_0_0_1_n_n 128 rfl rfl).symm k) = ix2 p k := funext fun ax => Fin.ext (by
    match ax with
    | ⟨0, _⟩ => exact lhs_second_0 _ _
    | ⟨1, _⟩ => exact (lhs_second_1 _ _).trans hk)
  have er : dot_S8000x128_S128x1_S8000x1_1_0_0_1_n_n.rhsIdx (ix2 p c) ((ValueIdx.contrEquiv1 dot_S8000x128_S128x1_S8000x1_1_0_0_1_n_n 128 rfl rfl).symm k) = ix2 k c := funext fun ax => Fin.ext (by
    match ax with
    | ⟨0, _⟩ => exact (rhs_second_0 _ _).trans hk
    | ⟨1, _⟩ => exact rhs_second_1 _ _)
  rw [el, er]

/-! ## The hidden layer at an index -/

/-- The hidden activation at `(p, j)`: the first product plus the bias row, clamped below at zero. -/
theorem hidden_apply (x : FVec Ideal S8000x128 .f32) (w : FVec Ideal S128x128 .bf16) (bias : FVec Ideal S1x128 .f32)
    (p : Fin 8000) (j : Fin 128) :
    maximumf
        (addf
          (matmul dot_S8000x128_S128x128_S8000x128_1_0_0_1_n_n none (truncf .bf16 x bitsLt_bf16_f32)
            (shapeCast S128x128 w shapeCasts_S128x128_S128x128) (constant (F := Ideal) S8000x128 .f32 0x00000000#32))
          (broadcastTo S8000x128 (shapeCast S1x128 bias shapeCasts_S1x128_S1x128) broadcasts_S1x128_S8000x128))
        (broadcast S8000x128 (Scalar.ofBits (F := Ideal) .f32 0x00000000#32)) (ix2 p j)
      = max ((∑ k : Fin 128, x (ix2 p k) * w (ix2 k j)) + bias (ix2 (0 : Fin 1) j)) 0 := by
  rw [shapeCast_self, shapeCast_self]
  refine (maximumf_apply _ _ (ix2 p j)).trans ?_
  refine congrArg₂ max ?_ ?_
  · refine (addf_apply _ _ (ix2 p j)).trans ?_
    refine congrArg₂ (· + ·) ?_ ?_
    · exact matmul_first_apply (truncf .bf16 x bitsLt_bf16_f32) w p j
    · exact broadcastTo_1b_ab_apply bias broadcasts_S1x128_S8000x128 p j
  · exact Ideal.ofBits_zero_f32

/-- Row `p` of the stored value is the score of the row's first layer `x p · w + bias`. -/
theorem payload_apply (x : Vec Ideal S8000x128 .f32) (w : Vec Ideal S128x128 .bf16) (bias : Vec Ideal S1x128 .f32)
    (w2 : Vec Ideal S128x1 .bf16) (b2 : Vec Ideal S1 .f32) (p : Fin 8000) :
    k0_pay1 (F := Ideal) x w bias w2 b2 (ix2 p (0 : Fin 1))
      = Cert.TeleSpec.score (fun j => (∑ k : Fin 128, x (ix2 p k) * w (ix2 k j)) + bias (ix2 (0 : Fin 1) j))
          (fun j => w2 (ix2 j (0 : Fin 1))) (b2 (ix1 (0 : Fin 1))) := by
  unfold k0_pay1
  refine (addf_apply _ _ (ix2 p (0 : Fin 1))).trans ?_
  unfold Cert.TeleSpec.score
  refine congrArg₂ (· + ·) ?_ ?_
  · rw [shapeCast_self w2]
    refine (matmul_second_apply _ w2 p (0 : Fin 1)).trans ?_
    refine Finset.sum_congr rfl fun j _ => ?_
    exact congrArg (· * w2 (ix2 j (0 : Fin 1))) (hidden_apply x w bias p j)
  · refine (broadcastTo_1b_ab_apply _ broadcasts_S1x1_S8000x1 p (0 : Fin 1)).trans ?_
    exact shapeCast_a_1a_apply b2 shapeCasts_S1_S1x1 (0 : Fin 1) (0 : Fin 1)

end Cert.KernelIdeal.Tele

end
-- ==== Proof.KernelIdealEntry.lean ====
/-
  What the launch finds in the three operand arrays the host prefix computes (the idealized kernel, `F := Ideal`).

  The kernel's second operand is the middle block of `W_tp1` (rows 128 … 255) cast to bf16, its fourth is `W_tp2` cast to
  bf16 — both casts the identity on extended reals —, and its third is the folded bias row
  `h_glob · W_tp1[0:128] + state · W_tp1[256:264] + b_tp1`.
-/
import proofs.«148518_j32255204393220_1_alg».proof.Proof.KernelIdealHost
import proofs.«148518_j32255204393220_1_alg».proof.Proof.TeleSpec
import Idealize.ShloMosaic.Lib.StableHlo.Run
import Idealize.ShloMosaic.PureOps.Ideal.Laws
import Idealize.ShloMosaic.Lib.ValueIdx
import Idealize.ShloMosaic.Lib.Pipeline.Value

set_option maxRecDepth 16384

noncomputable section

namespace Cert.KernelIdeal.Tele

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ)

/-! ## The operations of the bias row and of the two casts, each read at explicit coordinates -/

/-- Rows 0 … 127 of a 264-row matrix, read at `(k, j)`: the matrix there. -/
theorem slice_top_apply (W : (⟨S264x128, .f32⟩ : BufTy).Contents (Elt Ideal)) (k j : Fin 128) :
    extractStridedSlice S128x128 ![0, 0] W slices_S264x128_S128x128_0_0 (ix2 k j)
      = W (ix2 (⟨k.val, by omega⟩ : Fin 264) j) :=
  extractStridedSlice_apply ![0, 0] W slices_S264x128_S128x128_0_0 (ix2 k j) (ix2 (⟨k.val, by omega⟩ : Fin 264) j) (fun a => match a with
    | ⟨0, _⟩ => by show k.val = 0 + k.val; omega
    | ⟨1, _⟩ => by show j.val = 0 + j.val; omega)

/-- Rows 128 … 255, read at `(k, j)`: the matrix at `(128 + k, j)`. -/
theorem slice_mid_apply (W : (⟨S264x128, .f32⟩ : BufTy).Contents (Elt Ideal)) (k j : Fin 128) :
    extractStridedSlice S128x128 ![128, 0] W slices_S264x128_S128x128_128_0 (ix2 k j)
      = W (ix2 (⟨128 + k.val, by omega⟩ : Fin 264) j) :=
  extractStridedSlice_apply ![128, 0] W slices_S264x128_S128x128_128_0 (ix2 k j) (ix2 (⟨128 + k.val, by omega⟩ : Fin 264) j) (fun a => match a with
    | ⟨0, _⟩ => by show 128 + k.val = 128 + k.val; rfl
    | ⟨1, _⟩ => by show j.val = 0 + j.val; omega)

/-- Rows 256 … 263, read at `(k, j)`: the matrix at `(256 + k, j)`. -/
theorem slice_bot_apply (W : (⟨S264x128, .f32⟩ : BufTy).Contents (Elt Ideal)) (k : Fin 8) (j : Fin 128) :
    extractStridedSlice S8x128 ![256, 0] W slices_S264x128_S8x128_256_0 (ix2 k j)
      = W (ix2 (⟨256 + k.val, by omega⟩ : Fin 264) j) :=
  extractStridedSlice_apply ![256, 0] W slices_S264x128_S8x128_256_0 (ix2 k j) (ix2 (⟨256 + k.val, by omega⟩ : Fin 264) j) (fun a => match a with
    | ⟨0, _⟩ => by show 256 + k.val = 256 + k.val; rfl
    | ⟨1, _⟩ => by show j.val = 0 + j.val; omega)

/-- A length-128 vector broadcast to a single row, read at `(0, j)`: the vector at `j`. -/
theorem bias_row_apply (b : (⟨S128, .f32⟩ : BufTy).Contents (Elt Ideal)) (j : Fin 128) :
    broadcastInDim S1x128 ![1] bcast_S128_S1x128_1 b (ix2 (0 : Fin 1) j) = b (ix1 j) :=
  broadcastInDim_apply _ bcast_S128_S1x128_1 b (ix2 (0 : Fin 1) j) (ix1 j) (fun a => match a with
    | ⟨0, _⟩ => by show j.val = if (128 : Nat) = 1 then 0 else j.val; rw [if_neg (by decide)])

/-! The two products: the contraction's one axis is the left operand's axis 1 and the right operand's axis 0. -/

theorem lhs_hg_0 (i : S1x128.Idx) (q : dot_S1x128_S128x128_S1x128_1_0_0_1_n_n.contr.Idx) :
    (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
theorem lhs_hg_1 (i : S1x128.Idx) (q : dot_S1x128_S128x128_S1x128_1_0_0_1_n_n.contr.Idx) :
    (dot_S1x128_S128x128_S1x128_1_0_0_1_n_n.lhsIdx i q 1).val = (q ⟨0, by decide⟩).val :=
  dot_S1x128_S128x128_S1x128_1_0_0_1_n_n.lhsIdx_val_of_single rfl i q
theorem rhs_hg_0 (i : S1x128.Idx) (q : dot_S1x128_S128x128_S1x128_1_0_0_1_n_n.contr.Idx) :
    (dot_S1x128_S128x128_S1x128_1_0_0_1_n_n.rhsIdx i q 0).val = (q ⟨0, by decide⟩).val :=
  dot_S1x128_S128x128_S1x128_1_0_0_1_n_n.rhsIdx_val_of_single rfl i q
theorem rhs_hg_1 (i : S1x128.Idx) (q : dot_S1x128_S128x128_S1x128_1_0_0_1_n_n.contr.Idx) :
    (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl

theorem lhs_st_0 (i : S1x128.Idx) (q : dot_S1x8_S8x128_S1x128_1_0_0_1_n_n.contr.Idx) :
    (dot_S1x8_S8x128_S1x128_1_0_0_1_n_n.lhsIdx i q 0).val = (i 0).val := by
  unfold DotDims.lhsIdx
  rw [dif_neg (show ¬(0 : Fin S1x8.rank) ∈ dot_S1x8_S8x128_S1x128_1_0_0_1_n_n.lhsBatch by decide), dif_pos (show (0 : Fin S1x8.rank) ∈ dot_S1x8_S8x128_S1x128_1_0_0_1_n_n.lhsNonContracting by decide)]
  rfl
theorem lhs_st_1 (i : S1x128.Idx) (q : dot_S1x8_S8x128_S1x128_1_0_0_1_n_n.contr.Idx) :
    (dot_S1x8_S8x128_S1x128_1_0_0_1_n_n.lhsIdx i q 1).val = (q ⟨0, by decide⟩).val :=
  dot_S1x8_S8x128_S1x128_1_0_0_1_n_n.lhsIdx_val_of_single rfl i q
theorem rhs_st_0 (i : S1x128.Idx) (q : dot_S1x8_S8x128_S1x128_1_0_0_1_n_n.contr.Idx) :
    (dot_S1x8_S8x128_S1x128_1_0_0_1_n_n.rhsIdx i q 0).val = (q ⟨0, by decide⟩).val :=
  dot_S1x8_S8x128_S1x128_1_0_0_1_n_n.rhsIdx_val_of_single rfl i q
theorem rhs_st_1 (i : S1x128.Idx) (q : dot_S1x8_S8x128_S1x128_1_0_0_1_n_n.contr.Idx) :
    (dot_S1x8_S8x128_S1x128_1_0_0_1_n_n.rhsIdx i q 1).val = (i 1).val := by
  unfold DotDims.rhsIdx
  rw [dif_neg (show ¬(1 : Fin S8x128.rank) ∈ dot_S1x8_S8x128_S1x128_1_0_0_1_n_n.rhsBatch by decide), dif_pos (show (1 : Fin S8x128.rank) ∈ dot_S1x8_S8x128_S1x128_1_0_0_1_n_n.rhsNonContracting by decide)]
  rfl

/-- A row times a 128 × 128 matrix, at column `j`: the sum over the row. -/
theorem dot_hg_apply (x : FVec Ideal S1x128 .f32) (W : FVec Ideal S128x128 .f32) (j : Fin 128) :
    Host.dotGeneral (F := Ideal) dot_S1x128_S128x128_S1x128_1_0_0_1_n_n none x W (ix2 (0 : Fin 1) j)
      = ∑ k : Fin 128, x (ix2 (0 : Fin 1) k) * W (ix2 k j) := by
  simp only [Host.dotGeneral]
  rw [Ideal.dotGeneral_apply, ← Equiv.sum_comp (ValueIdx.contrEquiv1 dot_S1x128_S128x128_S1x128_1_0_0_1_n_n 128 rfl rfl).symm]
  refine Finset.sum_congr rfl fun k _ => ?_
  have hk := ValueIdx.contrEquiv1_symm_val dot_S1x128_S128x128_S1x128_1_0_0_1_n_n 128 rfl rfl k
  have el : dot_S1x128_S128x128_S1x128_1_0_0_1_n_n.lhsIdx (ix2 (0 : Fin 1) j) ((ValueIdx.contrEquiv1 dot_S1x128_S128x128_S1x128_1_0_0_1_n_n 128 rfl rfl).symm k) = ix2 (0 : Fin 1) k := funext fun a => Fin.ext (by
    match a with
    | ⟨0, _⟩ => exact lhs_hg_0 _ _
    | ⟨1, _⟩ => exact (lhs_hg_1 _ _).trans hk)
  have er : dot_S1x128_S128x128_S1x128_1_0_0_1_n_n.rhsIdx (ix2 (0 : Fin 1) j) ((ValueIdx.contrEquiv1 dot_S1x128_S128x128_S1x128_1_0_0_1_n_n 128 rfl rfl).symm k) = ix2 k j := funext fun a => Fin.ext (by
    match a with
    | ⟨0, _⟩ => exact (rhs_hg_0 _ _).trans hk
    | ⟨1, _⟩ => exact rhs_hg_1 _ _)
  rw [el, er]

/-- A row of eight times an 8 × 128 matrix, at column `j`: the sum over the row. -/
theorem dot_st_apply (x : FVec Ideal S1x8 .f32) (W : FVec Ideal S8x128 .f32) (j : Fin 128) :
    Host.dotGeneral (F := Ideal) dot_S1x8_S8x128_S1x128_1_0_0_1_n_n none x W (ix2 (0 : Fin 1) j)
      = ∑ k : Fin 8, x (ix2 (0 : Fin 1) k) * W (ix2 k j) := by
  simp only [Host.dotGeneral]
  rw [Ideal.dotGeneral_apply, ← Equiv.sum_comp (ValueIdx.contrEquiv1 dot_S1x8_S8x128_S1x128_1_0_0_1_n_n 8 rfl rfl).symm]
  refine Finset.sum_congr rfl fun k _ => ?_
  have hk := ValueIdx.contrEquiv1_symm_val dot_S1x8_S8x128_S1x128_1_0_0_1_n_n 8 rfl rfl k
  have el : dot_S1x8_S8x128_S1x128_1_0_0_1_n_n.lhsIdx (ix2 (0 : Fin 1) j) ((ValueIdx.contrEquiv1 dot_S1x8_S8x128_S1x128_1_0_0_1_n_n 8 rfl rfl).symm k) = ix2 (0 : Fin 1) k := funext fun a => Fin.ext (by
    match a with
    | ⟨0, _⟩ => exact lhs_st_0 _ _
    | ⟨1, _⟩ => exact (lhs_st_1 _ _).trans hk)
  have er : dot_S1x8_S8x128_S1x128_1_0_0_1_n_n.rhsIdx (ix2 (0 : Fin 1) j) ((ValueIdx.contrEquiv1 dot_S1x8_S8x128_S1x128_1_0_0_1_n_n 8 rfl rfl).symm k) = ix2 k j := funext fun a => Fin.ext (by
    match a with
    | ⟨0, _⟩ => exact (rhs_st_0 _ _).trans hk
    | ⟨1, _⟩ => exact rhs_st_1 _ _)
  rw [el, er]

/-! ## The three buffers as the host's terms of the arguments -/

/-- The middle block of a 264 × 128 matrix, cast to bf16. -/
def midCast (W : FVec Ideal S264x128 .f32) : FVec Ideal S128x128 .bf16 :=
  truncf (F := Ideal) .bf16 (extractStridedSlice S128x128 ![128, 0] W slices_S264x128_S128x128_128_0) bitsLt_bf16_f32

/-- A 128 × 1 column cast to bf16. -/
def colCast (w : FVec Ideal S128x1 .f32) : FVec Ideal S128x1 .bf16 :=
  truncf (F := Ideal) .bf16 w bitsLt_bf16_f32

/-- The bias row as the host computes it: the row `hg` times the top block of `W`, plus the row `st` times the bottom
    block of `W`, plus the vector `b` laid out as a row. -/
def biasRow (hg : FVec Ideal S1x128 .f32) (st : FVec Ideal S1x8 .f32) (W : FVec Ideal S264x128 .f32) (b : FVec Ideal S128 .f32) :
    FVec Ideal S1x128 .f32 :=
  addf (F := Ideal)
    (addf (F := Ideal)
      (Host.dotGeneral (F := Ideal) dot_S1x128_S128x128_S1x128_1_0_0_1_n_n none hg
        (extractStridedSlice S128x128 ![0, 0] W slices_S264x128_S128x128_0_0))
      (Host.dotGeneral (F := Ideal) dot_S1x8_S8x128_S1x128_1_0_0_1_n_n none st
        (extractStridedSlice S8x128 ![256, 0] W slices_S264x128_S8x128_256_0)))
    (broadcastInDim S1x128 ![1] bcast_S128_S1x128_1 b)

/-- At the launch the second operand holds the middle block of `W_tp1`, cast. -/
theorem V_w1_term (c : Dev nD) :
    V (F := Ideal) m c main_v33 = midCast (m ((c : Thread nD τ).loc main_arg16)) := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

/-- At the launch the fourth operand holds `W_tp2`, cast. -/
theorem V_w2_term (c : Dev nD) :
    V (F := Ideal) m c main_v34 = colCast (m ((c : Thread nD τ).loc main_arg18)) := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

/-- At the launch the third operand holds the bias row of `h_glob`, `state`, `W_tp1` and `b_tp1`. -/
theorem V_bias_term (c : Dev nD) :
    V (F := Ideal) m c main_v32
      = biasRow (m ((c : Thread nD τ).loc main_arg1)) (m ((c : Thread nD τ).loc main_arg2))
          (m ((c : Thread nD τ).loc main_arg16)) (m ((c : Thread nD τ).loc main_arg17)) := by
  dsimp only [V, V0]
  simp only [hostOps0, hostOps0_1, hostOps0_2, hostOps0_3, hostOps0_4, hostOps0_5, hostOps0_6, List.flatten_cons, List.flatten_nil, List.append_nil, List.cons_append, List.nil_append]
  after_results_simp <;> rfl

/-! ## The terms read at an index -/

/-- The cast middle block at `(k, j)` is the matrix at `(128 + k, j)`: the cast is the identity on extended reals. -/
theorem midCast_apply (W : FVec Ideal S264x128 .f32) (k j : Fin 128) :
    midCast W (ix2 k j) = W (ix2 (⟨128 + k.val, by omega⟩ : Fin 264) j) := by
  unfold midCast
  rw [truncf_apply]
  exact slice_mid_apply W k j

/-- The cast column at `(j, 0)` is the column there. -/
theorem colCast_apply (w : FVec Ideal S128x1 .f32) (j : Fin 128) :
    colCast w (ix2 j (0 : Fin 1)) = w (ix2 j (0 : Fin 1)) := by
  unfold colCast
  rw [truncf_apply]

/-- The bias row at `(0, j)` is the folded bias: the two products are the sums over rows 0 … 127 and 256 … 263 of `W`. -/
theorem biasRow_apply (hg : FVec Ideal S1x128 .f32) (st : FVec Ideal S1x8 .f32) (W : FVec Ideal S264x128 .f32)
    (b : FVec Ideal S128 .f32) (j : Fin 128) :
    biasRow hg st W b (ix2 (0 : Fin 1) j)
      = Cert.TeleSpec.foldedBias (fun k => hg (ix2 (0 : Fin 1) k)) (fun k => st (ix2 (0 : Fin 1) k))
          (fun k j => W (ix2 k j)) (fun j => b (ix1 j)) j := by
  unfold biasRow Cert.TeleSpec.foldedBias
  rw [addf_apply, addf_apply, dot_hg_apply, dot_st_apply, bias_row_apply]
  congr 1
  congr 1
  · exact Finset.sum_congr rfl fun k _ => by rw [slice_top_apply]
  · exact Finset.sum_congr rfl fun k _ => by rw [slice_bot_apply]

/-- The second operand at `(k, j)` is `W_tp1` at `(128 + k, j)`. -/
theorem V_w1_apply (c : Dev nD) (k j : Fin 128) :
    V (F := Ideal) m c main_v33 (ix2 k j) = m ((c : Thread nD τ).loc main_arg16) (ix2 (⟨128 + k.val, by omega⟩ : Fin 264) j) :=
  (congrFun (V_w1_term m c) (ix2 k j)).trans (midCast_apply _ k j)

/-- The fourth operand at `(j, 0)` is `W_tp2` there. -/
theorem V_w2_apply (c : Dev nD) (j : Fin 128) :
    V (F := Ideal) m c main_v34 (ix2 j (0 : Fin 1)) = m ((c : Thread nD τ).loc main_arg18) (ix2 j (0 : Fin 1)) :=
  (congrFun (V_w2_term m c) (ix2 j (0 : Fin 1))).trans (colCast_apply _ j)

/-- The third operand at `(0, j)` is the folded bias of `h_glob`, `state`, `W_tp1` and `b_tp1`. -/
theorem V_bias_apply (c : Dev nD) (j : Fin 128) :
    V (F := Ideal) m c main_v32 (ix2 (0 : Fin 1) j)
      = Cert.TeleSpec.foldedBias (fun k => m ((c : Thread nD τ).loc main_arg1) (ix2 (0 : Fin 1) k))
          (fun k => m ((c : Thread nD τ).loc main_arg2) (ix2 (0 : Fin 1) k))
          (fun k j => m ((c : Thread nD τ).loc main_arg16) (ix2 k j))
          (fun j => m ((c : Thread nD τ).loc main_arg17) (ix1 j)) j :=
  (congrFun (V_bias_term m c) (ix2 (0 : Fin 1) j)).trans (biasRow_apply _ _ _ _ j)

end Cert.KernelIdeal.Tele

end
-- ==== Proof.KernelIdealColumn.lean ====
/-
  From blocks to the array: the kernel's output column after the run (the idealized kernel, `F := Ideal`).

  Grid point `t` stages rows `8000·t … 8000·t + 7999` of `node_hidden` and the four parameter arrays whole, and writes
  back the 8000 × 1 block whose row `p` is the score of node `8000·t + p`: the row's first layer in the folded form
  (the second operand is the middle block of `W_tp1`, the third the folded bias, the fourth `W_tp2`), then relu, the
  second layer and its bias. So what point `t` writes back is block `t` of ONE column function of the arguments; the
  fifty blocks are the fifty stretches of 8000 rows, which cover the 400000 rows; hence the output array ends holding
  that function.
-/
import proofs.«148518_j32255204393220_1_alg».proof.Proof.KernelIdealBody
import proofs.«148518_j32255204393220_1_alg».proof.Proof.KernelIdealPayload
import proofs.«148518_j32255204393220_1_alg».proof.Proof.KernelIdealEntry

set_option maxRecDepth 16384

noncomputable section

namespace Cert.KernelIdeal.Tele

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

theorem origin2 : (![0, 0] : Fin 2 → Nat) = fun _ => 0 := funext fun a => by fin_cases a <;> rfl
theorem origin1 : (![0] : Fin 1 → Nat) = fun _ => 0 := funext fun a => by fin_cases a <;> rfl

/-- The score of node `n`, folded form, from the argument arrays as launched. -/
def nodeScore (c : Dev nD) (n : Fin 400000) : EReal :=
  Cert.TeleSpec.score
    (Cert.TeleSpec.hiddenFolded (fun k => m ((c : Thread nD τ).loc main_arg1) (ix2 (0 : Fin 1) k))
      (fun k => m ((c : Thread nD τ).loc main_arg0) (ix2 n k))
      (fun k => m ((c : Thread nD τ).loc main_arg2) (ix2 (0 : Fin 1) k))
      (fun k j => m ((c : Thread nD τ).loc main_arg16) (ix2 k j))
      (fun j => m ((c : Thread nD τ).loc main_arg17) (ix1 j)))
    (fun j => m ((c : Thread nD τ).loc main_arg18) (ix2 j (0 : Fin 1)))
    (m ((c : Thread nD τ).loc main_arg19) (ix1 (0 : Fin 1)))

/-- The column: entry `(n, 0)` is node `n`'s score. -/
def column (c : Dev nD) : S400000x1.Idx → EReal := fun i => nodeScore m c ⟨(i 0).val, idx2_lt0 i⟩

/-- The printed index maps, decided over the grid: window 0 and the output move with the point along the rows, the
    parameter windows stay at the origin. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- A row of a point's block is a row of the array: `8000·t + p < 400000`. -/
theorem row_lt (t : Fin cfg0.N) (p : Fin 8000) : 8000 * t.val + p.val < 400000 := by
  have ht : t.val < 50 := lt_of_lt_of_eq t.isLt N_0
  have hp := p.isLt; omega

/-! ## The input blocks, read -/

theorem blk_x (c : Dev nD) (t : Fin cfg0.N) (p : Fin 8000) (k : Fin 128) :
    iblk m c 0 t (ix2 p k) = m ((c : Thread nD τ).loc main_arg0) (ix2 (⟨8000 * t.val + p.val, row_lt t p⟩ : Fin 400000) k) := by
  rw [← V_arg0 m c]
  show V m c main_arg0 (((cfg0.win 0).blk t).view.emb (ix2 p k)) = V m c main_arg0 _
  congr 1
  obtain ⟨e00, e01, -⟩ := index_facts t
  funext a; apply Fin.ext
  match a with
  | ⟨0, _⟩ => show win0_0.index t (0 : Fin 2) * 8000 + 1 * p.val = 8000 * t.val + p.val; omega
  | ⟨1, _⟩ => show win0_0.index t (1 : Fin 2) * 128 + 1 * k.val = k.val; omega

theorem blk_w1 (c : Dev nD) (t : Fin cfg0.N) (k j : Fin 128) :
    iblk m c 1 t (ix2 k j) = V m c main_v33 (ix2 k j) := by
  show V m c main_v33 (((cfg0.win 1).blk t).view.emb (ix2 k j)) = V m c main_v33 _
  congr 1
  obtain ⟨-, -, e10, e11, -⟩ := index_facts t
  funext a; apply Fin.ext
  match a with
  | ⟨0, _⟩ => show win0_1.index t (0 : Fin 2) * 128 + 1 * k.val = k.val; omega
  | ⟨1, _⟩ => show win0_1.index t (1 : Fin 2) * 128 + 1 * j.val = j.val; omega

theorem blk_bias (c : Dev nD) (t : Fin cfg0.N) (j : Fin 128) :
    iblk m c 2 t (ix2 (0 : Fin 1) j) = V m c main_v32 (ix2 (0 : Fin 1) j) := by
  show V m c main_v32 (((cfg0.win 2).blk t).view.emb (ix2 (0 : Fin 1) j)) = V m c main_v32 _
  congr 1
  obtain ⟨-, -, -, -, e20, e21, -⟩ := index_facts t
  funext a; apply Fin.ext
  match a with
  | ⟨0, _⟩ => show win0_2.index t (0 : Fin 2) * 1 + 1 * (0 : Fin 1).val = (0 : Fin 1).val; omega
  | ⟨1, _⟩ => show win0_2.index t (1 : Fin 2) * 128 + 1 * j.val = j.val; omega

theorem blk_w2 (c : Dev nD) (t : Fin cfg0.N) (j : Fin 128) :
    iblk m c 3 t (ix2 j (0 : Fin 1)) = V m c main_v34 (ix2 j (0 : Fin 1)) := by
  show V m c main_v34 (((cfg0.win 3).blk t).view.emb (ix2 j (0 : Fin 1))) = V m c main_v34 _
  congr 1
  obtain ⟨-, -, -, -, -, -, e30, e31, -⟩ := index_facts t
  funext a; apply Fin.ext
  match a with
  | ⟨0, _⟩ => show win0_3.index t (0 : Fin 2) * 128 + 1 * j.val = j.val; omega
  | ⟨1, _⟩ => show win0_3.index t (1 : Fin 2) * 1 + 1 * (0 : Fin 1).val = (0 : Fin 1).val; omega

theorem blk_b2 (c : Dev nD) (t : Fin cfg0.N) :
    iblk m c 4 t (ix1 (0 : Fin 1)) = m ((c : Thread nD τ).loc main_arg19) (ix1 (0 : Fin 1)) := by
  rw [← V_arg19 m c]
  show V m c main_arg19 (((cfg0.win 4).blk t).view.emb (ix1 (0 : Fin 1))) = V m c main_arg19 _
  congr 1
  obtain ⟨-, -, -, -, -, -, -, -, e40, -⟩ := index_facts t
  funext a; apply Fin.ext
  match a with
  | ⟨0, _⟩ => show win0_4.index t (0 : Fin 1) * 1 + 1 * (0 : Fin 1).val = (0 : Fin 1).val; omega

/-! ## What a point writes back -/

/-- Point `t` writes back block `t` of the column. -/
theorem flushed_eq (c : Dev nD) (t : Fin cfg0.N) :
    (dats m 0 c).flushed 5 t = ((cfg0.win 5).blk t).view.read (Elt Ideal) (column m c) := by
  show (cfg0.win 5).cut (grid0.coords t) ((dats m 0 c).after 5 t) = _
  rw [after_out]
  unfold outBlock
  rw [View.canon_unit_zero origin2]
  simp only [View.ld_unit_zero (S := S8000x128) origin2, View.ld_unit_zero (S := S128x128) origin2,
    View.ld_unit_zero (S := S1x128) origin2, View.ld_unit_zero (S := S128x1) origin2, View.ld_unit_zero (S := S1) origin1]
  funext y
  obtain ⟨p, q, rfl⟩ : ∃ (p : Fin 8000) (q : Fin 1), y = ix2 p q := ⟨y 0, y 1, eq_ix2 y⟩
  obtain rfl : q = 0 := Subsingleton.elim _ _
  refine (payload_apply _ _ _ _ _ p).trans ?_
  show _ = column m c (((cfg0.win 5).blk t).view.emb (ix2 p (0 : Fin 1)))
  have hrow : ((((cfg0.win 5).blk t).view.emb (ix2 p (0 : Fin 1))) 0).val = 8000 * t.val + p.val := by
    obtain ⟨-, -, -, -, -, -, -, -, -, e50, -⟩ := index_facts t
    show win0_5.index t (0 : Fin 2) * 8000 + 1 * p.val = 8000 * t.val + p.val; omega
  unfold column nodeScore
  have hn : (⟨((((cfg0.win 5).blk t).view.emb (ix2 p (0 : Fin 1))) 0).val, idx2_lt0 _⟩ : Fin 400000) = ⟨8000 * t.val + p.val, row_lt t p⟩ :=
    Fin.ext hrow
  rw [hn]
  unfold Cert.TeleSpec.hiddenFolded
  refine congr (congr (congrArg Cert.TeleSpec.score ?_) ?_) ?_
  · funext j
    rw [blk_bias, V_bias_apply]
    refine congrArg (· + _) (Finset.sum_congr rfl fun k _ => ?_)
    rw [blk_x, blk_w1, V_w1_apply]
  · funext j
    rw [blk_w2, V_w2_apply]
  · exact blk_b2 m c t

/-! ## The blocks cover the rows -/

theorem mem_blk (t : Fin cfg0.N) (i : S400000x1.Idx) :
    i ∈ ((cfg0.win 5).blk t).view.set ↔ ∀ a : Fin 2, win0_5.index t a * S8000x1.size a ≤ (i a).val ∧ (i a).val < win0_5.index t a * S8000x1.size a + S8000x1.size a := by
  show i ∈ ((View.whole main_v35).slice (win0_5.rect t)).set ↔ _
  rw [View.set_slice_whole, Rect.mem_set_unit]
  exact Iff.rfl

/-- Row `r` lies in the block of point `r / 8000`. -/
theorem covered (i : S400000x1.Idx) :
    ∃ t : Fin cfg0.N, (cfg0.win 5).flush t = true ∧ i ∈ ((cfg0.win 5).blk t).view.set := by
  have hi0 : (i 0).val < 400000 := idx2_lt0 i
  have hi1 : (i 1).val < 1 := idx2_lt1 i
  let t : Fin cfg0.N := ⟨(i 0).val / 8000, lt_of_lt_of_eq (by omega : (i 0).val / 8000 < 50) N_0.symm⟩
  refine ⟨t, flush0_5 t, ?_⟩
  rw [mem_blk]
  obtain ⟨-, -, -, -, -, -, -, -, -, e50, e51⟩ := index_facts t
  have ht : t.val = (i 0).val / 8000 := rfl
  intro a
  match a with
  | ⟨0, _⟩ => show win0_5.index t (0 : Fin 2) * 8000 ≤ (i 0).val ∧ (i 0).val < win0_5.index t (0 : Fin 2) * 8000 + 8000; omega
  | ⟨1, _⟩ => show win0_5.index t (1 : Fin 2) * 1 ≤ (i 1).val ∧ (i 1).val < win0_5.index t (1 : Fin 2) * 1 + 1; omega

/-- The output array after the run is the column. -/
theorem output_eq (c : Dev nD) : (dats m 0 c).arrAt 5 cfg0.N = column m c :=
  (dats m 0 c).arrAt_eq_of_cover 5 (column m c) (fun t _ => flushed_eq m c t) (covered)

end Cert.KernelIdeal.Tele

end
-- ==== Proof.RefColumn.lean ====
/-
  The reference's teleport column, read at an index (the idealized reference, `F := Ideal`).

  Row `n` of the reference's `%36` is `relu([h_glob, node_hidden n, state] · W_tp1 + b_tp1) · W_tp2 + b_tp2`: the score of
  the first layer in its concatenated form.
-/
import proofs.«148518_j32255204393220_1_alg».proof.Proof.Gen.ReferenceIdeal.Run
import proofs.«148518_j32255204393220_1_alg».proof.Proof.Gen.ReferenceIdeal.Read
import proofs.«148518_j32255204393220_1_alg».proof.Proof.TeleSpec
import Idealize.ShloMosaic.PureOps.Ideal.Laws
import Idealize.ShloMosaic.Lib.ValueIdx
import Idealize.ShloMosaic.Lib.Pipeline.Value

noncomputable section

namespace Cert.ReferenceIdeal.Tele

open Cert.ReferenceIdeal Cert.ReferenceIdeal.Gen Cert.ReferenceIdeal.Read
open Idealize.ShloMosaic Idealize.ShloMosaic.TcCoe Idealize.SL.Sem Idealize.ShloMosaic.ValueIdx
open scoped BigOperators

/-- The two coordinates of the first broadcast operand's source index. -/
private theorem idx25 (n : Fin 400000) (c : Fin 128) : idx_main_v25 (ix2 n c) = ix2 (0 : Fin 1) c :=
  funext fun a => by match a with | ⟨0, _⟩ => rfl | ⟨1, _⟩ => rfl

private theorem idx26 (n : Fin 400000) (c : Fin 8) : idx_main_v26 (ix2 n c) = ix2 (0 : Fin 1) c :=
  funext fun a => by match a with | ⟨0, _⟩ => rfl | ⟨1, _⟩ => rfl

/-- Columns below 128 of the concatenated row are the global hidden vector. -/
theorem ref_cat_lo (x0 : S400000x128.Idx → EReal) (x1 : S1x128.Idx → EReal) (x2 : S1x8.Idx → EReal)
    (n : Fin 400000) (k : Fin 264) (hk : k.val < 128) :
    val_main_v27 (F := Ideal) x0 x1 x2 (ix2 n k) = x1 (ix2 (0 : Fin 1) (⟨k.val, hk⟩ : Fin 128)) := by
  unfold val_main_v27
  rw [concatenate_apply_piece (1 : Fin S400000x264.rank)
    [⟨S400000x128, val_main_v25 (F := Ideal) x1⟩, ⟨S400000x128, x0⟩, ⟨S400000x8, val_main_v26 (F := Ideal) x2⟩]
    concatenates_S400000x128_S400000x128_S400000x8_S400000x264_d1
    (ix2 n k) 0 (Nat.succ_pos _) S400000x128 (val_main_v25 (F := Ideal) x1) rfl rfl 0 rfl
    (ix2 n (⟨k.val, hk⟩ : Fin 128))
    (fun b hb => by match b with
      | ⟨0, _⟩ => rfl
      | ⟨1, _⟩ => exact absurd rfl hb)
    (by show 0 + k.val = k.val; omega)]
  rw [val_main_v25_apply, idx25]

/-- Columns 128 to 255 of the concatenated row are the node's own hidden row. -/
theorem ref_cat_mid (x0 : S400000x128.Idx → EReal) (x1 : S1x128.Idx → EReal) (x2 : S1x8.Idx → EReal)
    (n : Fin 400000) (k : Fin 264) (h0 : ¬ k.val < 128) (hk : k.val < 256) :
    val_main_v27 (F := Ideal) x0 x1 x2 (ix2 n k) = x0 (ix2 n (⟨k.val - 128, by omega⟩ : Fin 128)) := by
  unfold val_main_v27
  exact concatenate_apply_piece (1 : Fin S400000x264.rank)
    [⟨S400000x128, val_main_v25 (F := Ideal) x1⟩, ⟨S400000x128, x0⟩, ⟨S400000x8, val_main_v26 (F := Ideal) x2⟩]
    concatenates_S400000x128_S400000x128_S400000x8_S400000x264_d1
    (ix2 n k) 1 (Nat.succ_lt_succ (Nat.succ_pos _)) S400000x128 x0 rfl rfl 128 rfl
    (ix2 n (⟨k.val - 128, by omega⟩ : Fin 128))
    (fun b hb => by match b with
      | ⟨0, _⟩ => rfl
      | ⟨1, _⟩ => exact absurd rfl hb)
    (by show 128 + (k.val - 128) = k.val; omega)

/-- Columns from 256 on of the concatenated row are the state vector. -/
theorem ref_cat_hi (x0 : S400000x128.Idx → EReal) (x1 : S1x128.Idx → EReal) (x2 : S1x8.Idx → EReal)
    (n : Fin 400000) (k : Fin 264) (h1 : ¬ k.val < 256) :
    val_main_v27 (F := Ideal) x0 x1 x2 (ix2 n k) = x2 (ix2 (0 : Fin 1) (⟨k.val - 256, by omega⟩ : Fin 8)) := by
  unfold val_main_v27
  rw [concatenate_apply_piece (1 : Fin S400000x264.rank)
    [⟨S400000x128, val_main_v25 (F := Ideal) x1⟩, ⟨S400000x128, x0⟩, ⟨S400000x8, val_main_v26 (F := Ideal) x2⟩]
    concatenates_S400000x128_S400000x128_S400000x8_S400000x264_d1
    (ix2 n k) 2 (Nat.succ_lt_succ (Nat.succ_lt_succ (Nat.succ_pos _))) S400000x8 (val_main_v26 (F := Ideal) x2) rfl rfl 256 rfl
    (ix2 n (⟨k.val - 256, by omega⟩ : Fin 8))
    (fun b hb => by match b with
      | ⟨0, _⟩ => rfl
      | ⟨1, _⟩ => exact absurd rfl hb)
    (by show 256 + (k.val - 256) = k.val; omega)]
  rw [val_main_v26_apply, idx26]

/-- The concatenated row of node `n`, column by column. -/
theorem ref_cat_row (x0 : S400000x128.Idx → EReal) (x1 : S1x128.Idx → EReal) (x2 : S1x8.Idx → EReal)
    (n : Fin 400000) (k : Fin 264) :
    val_main_v27 (F := Ideal) x0 x1 x2 (ix2 n k)
      = Cert.TeleSpec.catRow (fun c => x1 (ix2 (0 : Fin 1) c)) (fun c => x0 (ix2 n c)) (fun c => x2 (ix2 (0 : Fin 1) c)) k := by
  unfold Cert.TeleSpec.catRow
  by_cases h : k.val < 128
  · rw [dif_pos h]; exact ref_cat_lo x0 x1 x2 n k h
  · rw [dif_neg h]
    by_cases h' : k.val < 256
    · rw [dif_pos h']; exact ref_cat_mid x0 x1 x2 n k h h'
    · rw [dif_neg h']; exact ref_cat_hi x0 x1 x2 n k h'

private theorem lidx33 (n : Fin 400000) (j : Fin 128) : lidx_main_v33 (ix2 n (0 : Fin 1)) j = ix2 n j :=
  funext fun a => by match a with | ⟨0, _⟩ => rfl | ⟨1, _⟩ => rfl

private theorem ridx33 (n : Fin 400000) (j : Fin 128) : ridx_main_v33 (ix2 n (0 : Fin 1)) j = ix2 j (0 : Fin 1) :=
  funext fun a => by match a with | ⟨0, _⟩ => rfl | ⟨1, _⟩ => rfl

private theorem lidx28 (n : Fin 400000) (j : Fin 128) (k : Fin 264) : lidx_main_v28 (ix2 n j) k = ix2 n k :=
  funext fun a => by match a with | ⟨0, _⟩ => rfl | ⟨1, _⟩ => rfl

private theorem ridx28 (n : Fin 400000) (j : Fin 128) (k : Fin 264) : ridx_main_v28 (ix2 n j) k = ix2 k j :=
  funext fun a => by match a with | ⟨0, _⟩ => rfl | ⟨1, _⟩ => rfl

private theorem idx2930 (n : Fin 400000) (j : Fin 128) : idx_main_v29 (idx_main_v30 (ix2 n j)) = ix1 j :=
  funext fun a => by match a with | ⟨0, _⟩ => rfl

private theorem idx3435 (n : Fin 400000) : idx_main_v34 (idx_main_v35 (ix2 n (0 : Fin 1))) = ix1 (0 : Fin 1) :=
  funext fun a => by match a with | ⟨0, _⟩ => rfl

/-- The first layer after its rectifier, at node `n` and hidden unit `j`. -/
theorem ref_hidden_at (x0 : S400000x128.Idx → EReal) (x1 : S1x128.Idx → EReal) (x2 : S1x8.Idx → EReal)
    (x16 : S264x128.Idx → EReal) (x17 : S128.Idx → EReal) (n : Fin 400000) (j : Fin 128) :
    val_main_v32 (F := Ideal) x0 x1 x2 x16 x17 (ix2 n j)
      = max (Cert.TeleSpec.hiddenCat (fun k => x1 (ix2 (0 : Fin 1) k)) (fun k => x0 (ix2 n k)) (fun k => x2 (ix2 (0 : Fin 1) k))
            (fun k j => x16 (ix2 k j)) (fun j => x17 (ix1 j)) j) 0 := by
  rw [val_main_v32_apply, val_main_v31_apply, val_main_v28_apply, val_main_v30_apply, val_main_v29_apply,
    val_main_call3_v0_apply, val_main_call3_cst_apply, idx2930]
  have hz : (FloatOps.ofBits (F := Ideal) FTy.f32 0x00000000#32) = 0 := Ideal.ofBits_zero_f32
  rw [Ideal.maximumf_def, Ideal.addf_def, hz]
  unfold Cert.TeleSpec.hiddenCat
  congr 2
  refine Finset.sum_congr rfl fun k _ => ?_
  rw [lidx28, ridx28, ref_cat_row]

/-- Row `n` of the reference's column is the score of the concatenated first layer of that node's row. -/
theorem ref_column (x0 : S400000x128.Idx → EReal) (x1 : S1x128.Idx → EReal) (x2 : S1x8.Idx → EReal)
    (x16 : S264x128.Idx → EReal) (x17 : S128.Idx → EReal) (x18 : S128x1.Idx → EReal) (x19 : S1.Idx → EReal) (n : Fin 400000) :
    val_main_v36 (F := Ideal) x0 x1 x2 x16 x17 x18 x19 (ix2 n (0 : Fin 1))
      = Cert.TeleSpec.score
          (Cert.TeleSpec.hiddenCat (fun k => x1 (ix2 (0 : Fin 1) k)) (fun k => x0 (ix2 n k)) (fun k => x2 (ix2 (0 : Fin 1) k))
            (fun k j => x16 (ix2 k j)) (fun j => x17 (ix1 j)))
          (fun j => x18 (ix2 j (0 : Fin 1))) (x19 (ix1 (0 : Fin 1))) := by
  rw [val_main_v36_apply, val_main_v33_apply, val_main_v35_apply, val_main_v34_apply, idx3435, Ideal.addf_def]
  unfold Cert.TeleSpec.score
  congr 1
  refine Finset.sum_congr rfl fun j _ => ?_
  rw [lidx33, ridx33, ref_hidden_at]

end Cert.ReferenceIdeal.Tele

end
-- ==== Proof.TeleBridge.lean ====
/-
  The two idealized programs compute one function (`F := Ideal`), and the algebraic claim.

  After the run the kernel's result buffer holds the concatenation of the three single-row heads, as the launch found
  them, with the transpose of the output column. Each head is, operation for operation, the reference's term of the same
  arguments; the column is the reference's column because, node by node, the folded first layer is the concatenated one
  (a finite sum regrouped). So the kernel's result is the reference's result of the kernel's own launch memory, and the
  reference, run from a memory that agrees on the twenty arguments, ends with the same array.
-/
import proofs.«148518_j32255204393220_1_alg».proof.Defs
import proofs.«148518_j32255204393220_1_alg».proof.Proof.Gen.Pre_finite_inputs
import proofs.«148518_j32255204393220_1_alg».proof.Proof.KernelIdealColumn
import proofs.«148518_j32255204393220_1_alg».proof.Proof.RefColumn
import Idealize.ShloMosaic.Lib.StableHlo.Run

set_option maxRecDepth 16384

noncomputable section

namespace Cert.Proof.Tele

open Cert.KernelIdeal Cert.KernelIdeal.Gen Cert.KernelIdeal.Tele
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The reference's result as a function of the kernel's launch memory: its twenty arguments on core `c`. -/
def expected (c : Dev nD) : S1x400039.Idx → EReal :=
  Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

/-- The kernel's column is the reference's: node by node the folded first layer is the concatenated one. -/
theorem column_eq (c : Dev nD) :
    column m c = Cert.ReferenceIdeal.Read.val_main_v36 (F := Ideal) (m ((c : Thread nD τ).loc main_arg0)) (m ((c : Thread nD τ).loc main_arg1)) (m ((c : Thread nD τ).loc main_arg2)) (m ((c : Thread nD τ).loc main_arg16)) (m ((c : Thread nD τ).loc main_arg17)) (m ((c : Thread nD τ).loc main_arg18)) (m ((c : Thread nD τ).loc main_arg19)) := by
  funext i
  obtain ⟨n, q, rfl⟩ : ∃ (n : Fin 400000) (q : Fin 1), i = ix2 n q := ⟨i 0, i 1, eq_ix2 i⟩
  obtain rfl : q = 0 := Subsingleton.elim _ _
  refine Eq.trans ?_ (Cert.ReferenceIdeal.Tele.ref_column _ _ _ _ _ _ _ n).symm
  show nodeScore m c n = _
  unfold nodeScore
  refine congrArg (fun h => Cert.TeleSpec.score h _ _) (funext fun j => ?_)
  exact Cert.TeleSpec.hiddenFolded_eq _ _ _ _ _ j

/-! ## The three single-row heads: the same operations of the same arguments in both programs -/

set_option maxHeartbeats 2000000 in
theorem head_high (c : Dev nD) :
    V m c main_v8 = Cert.ReferenceIdeal.Read.val_main_v8 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  rfl

set_option maxHeartbeats 2000000 in
theorem head_internal (c : Dev nD) :
    V m c main_v15 = Cert.ReferenceIdeal.Read.val_main_v15 (F := Ideal) (m ((c : Thread nD τ).loc main_arg0)) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11)) := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  rfl

set_option maxHeartbeats 2000000 in
theorem head_ext (c : Dev nD) :
    V m c main_v24 = Cert.ReferenceIdeal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg12)) (m ((c : Thread nD τ).loc main_arg13)) (m ((c : Thread nD τ).loc main_arg14)) (m ((c : Thread nD τ).loc main_arg15)) := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  rfl

/-! ## The tail -/

set_option maxHeartbeats 2000000 in
/-- What the two tail operations leave in the result buffer: the three heads as the launch found them and the transpose
    of the kernel's output array, concatenated. -/
theorem tail_term (c : Dev nD) :
    Pipeline.afterTail₀ cfgs (dats m) 0 (V0 m) [hostOps1] c main_v37
      = concatenate S1x400039 1 [⟨S1x4, V m c main_v8⟩, ⟨S1x5, V m c main_v15⟩, ⟨S1x30, V m c main_v24⟩,
          ⟨S1x400000, transpose S1x400000 [1, 0] ((dats m 0 c).arrAt 5 cfg0.N) transposes_S400000x1_S1x400000_1_0⟩]
          concatenates_S1x4_S1x5_S1x30_S1x400000_S1x400039_d1 := by
  have h8 : Pipeline.withArrays (cfgs 0).spec c (V0 m c) (fun w => (dats m 0 c).arrAt w (cfgs 0).N) (Proc.devRef .tc main_v8) = V m c main_v8 :=
    Pipeline.withArrays_of_ne _ c (V0 m c) _ main_v8 (by exact (by decide : ∀ w, Pipeline.arrRef spec0 w ≠ main_v8))
  have h15 : Pipeline.withArrays (cfgs 0).spec c (V0 m c) (fun w => (dats m 0 c).arrAt w (cfgs 0).N) (Proc.devRef .tc main_v15) = V m c main_v15 :=
    Pipeline.withArrays_of_ne _ c (V0 m c) _ main_v15 (by exact (by decide : ∀ w, Pipeline.arrRef spec0 w ≠ main_v15))
  have h24 : Pipeline.withArrays (cfgs 0).spec c (V0 m c) (fun w => (dats m 0 c).arrAt w (cfgs 0).N) (Proc.devRef .tc main_v24) = V m c main_v24 :=
    Pipeline.withArrays_of_ne _ c (V0 m c) _ main_v24 (by exact (by decide : ∀ w, Pipeline.arrRef spec0 w ≠ main_v24))
  have h35 : Pipeline.withArrays (cfgs 0).spec c (V0 m c) (fun w => (dats m 0 c).arrAt w (cfgs 0).N) (Proc.devRef .tc main_v35) = (dats m 0 c).arrAt 5 cfg0.N :=
    Pipeline.withArrays_arr spec0 launch0.win.arr_inj c (V0 m c) _ 5
  unfold Pipeline.afterTail₀
  show StableHlo.after hostOps1 _ (Proc.devRef .tc main_v37) = _
  after_results_simp
  simp only [Matrix.cons_val]
  rw [StableHlo.unary_result_ne (r := main_v8) (h := by decide)]
  rw [StableHlo.unary_result_ne (r := main_v15) (h := by decide)]
  rw [StableHlo.unary_result_ne (r := main_v24) (h := by decide)]
  rw [StableHlo.unary_result]
  rw [h8, h15, h24, h35]

/-- The kernel's result is the reference's result of the same arguments. -/
theorem result_eq (c : Dev nD) :
    Pipeline.afterTail₀ cfgs (dats m) 0 (V0 m) [hostOps1] c main_v37 = expected m c := by
  rw [tail_term, head_high, head_internal, head_ext, output_eq, column_eq]
  rfl

/-! ## The algebraic claim -/

/-- Run from memories that agree on the twenty arguments, both idealized programs terminate, leave the arguments
    unchanged, and end with one and the same result array: the reference's function of the arguments. -/
theorem algebraic : Cert.algebraic_KernelIdeal_ReferenceIdeal := by
  intro m ρ m' ρ' _ hagree
  refine ⟨fun c => expected m c, ?_, ?_⟩
  · exact (θ_run (Cert.KernelIdeal.defs (F := Ideal)) _ _).mono
      (fun r h c => ⟨((h c).2 main_v37 (Pipeline.mem_restRefs_of main_v37 (by decide) (by decide))).trans (result_eq m c),
        args_kept_of_post m (dats m) (A_eq m) r h c⟩)
      (run_main m ρ)
  · refine (θ_run (Cert.ReferenceIdeal.defs (F := Ideal)) _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19⟩ := hagree c
    show Cert.ReferenceIdeal.Read.val_main_v38 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) = _
    rw [e0, e1, e2, e3, e4, e5, e6, e7, e8, e9, e10, e11, e12, e13, e14, e15, e16, e17, e18, e19]
    rfl

end Cert.Proof.Tele

end
-- ==== Proof.lean ====
/-
  The teleport-FFN kernel against its jnp reference: the five claims.

  The program computes three single-row policy heads on the host and, in one row-tiled kernel over 400000 nodes, the
  teleport score `relu(x · W + bias) · w₂ + b₂`, where the kernel's `W` is the middle block of the first layer's weights
  and `bias` folds in everything that is the same for every node. Both kernel programs run to the end and keep their
  arguments (the frames: the launch theorem for one kernel between host operations, over the body's own triple); the
  reference is host operations only (its frame is its generated run with the result forgotten); nothing was rewritten
  by the idealization (`preserves` is `True`); and at the ideal instance the two programs end with the same array,
  because a sum over the 264 concatenated features is the sum of its three stretches regrouped.
-/
import proofs.«148518_j32255204393220_1_alg».proof.Defs
import proofs.«148518_j32255204393220_1_alg».proof.Proof.Gen.Kernel
import proofs.«148518_j32255204393220_1_alg».proof.Proof.Gen.KernelIdeal
import proofs.«148518_j32255204393220_1_alg».proof.Proof.Gen.ReferenceIdeal
import proofs.«148518_j32255204393220_1_alg».proof.Proof.Gen.Pre_finite_inputs
import proofs.«148518_j32255204393220_1_alg».proof.Proof.KernelBody
import proofs.«148518_j32255204393220_1_alg».proof.Proof.TeleBridge
import Idealize.ShloMosaic.Adequacy
import Idealize.ShloMosaic.Init

noncomputable section

namespace Cert.Proof

open Idealize.ShloMosaic Idealize.SL.Sem

theorem frame_kernel : Cert.frame_Kernel := fun m ρ _ => Cert.Kernel.Tele.frame m ρ

theorem frame_kernel_ideal : Cert.frame_KernelIdeal := fun m ρ _ => Cert.KernelIdeal.Tele.frame m ρ

theorem frame_reference : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, Cert.Proof.Tele.algebraic⟩

end Cert.Proof

end
